-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x4 : Shape := ⟨3, ![4096, 64, 4]⟩
abbrev S2048 : Shape := ⟨1, ![2048]⟩
abbrev S2048x4 : Shape := ⟨2, ![2048, 4]⟩
abbrev S2048x1 : Shape := ⟨2, ![2048, 1]⟩
abbrev S1x2048x1 : Shape := ⟨3, ![1, 2048, 1]⟩
abbrev S_ : Shape := ⟨0, ![]⟩
abbrev S4096x2048x4 : Shape := ⟨3, ![4096, 2048, 4]⟩
abbrev S4096x2048x1 : Shape := ⟨3, ![4096, 2048, 1]⟩
abbrev S4096x2048 : Shape := ⟨2, ![4096, 2048]⟩

class Facts : Prop where
  slices_S2048x4_S2048x1_0_0 : S2048x4.Slices ![0, 0] S2048x1
  shapeCasts_S2048x1_S2048 : S2048x1.ShapeCasts S2048
  bcast_S2048_S1x2048x1_1 : S2048.BroadcastsInDim S1x2048x1 (![1] : Fin 1 → Fin S1x2048x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S1x2048x1_S4096x2048x4_0_1_2 : S1x2048x1.BroadcastsInDim S4096x2048x4 (![0, 1, 2] : Fin 3 → Fin S4096x2048x4.rank)
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  slices_S4096x2048x4_S4096x2048x1_0_0_3 : S4096x2048x4.Slices ![0, 0, 3] S4096x2048x1
  shapeCasts_S4096x2048x1_S4096x2048 : S4096x2048x1.ShapeCasts S4096x2048
  bcast_S_S4096x64x4 : S_.BroadcastsInDim S4096x64x4 (![] : Fin 0 → Fin S4096x64x4.rank)
  reducesTo_S4096x64x4_S_d0_1_2 : S4096x64x4.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_
  reducesTo_S2048_S_d0 : S2048.ReducesTo [0] S_
  bcast_S_S4096x2048 : S_.BroadcastsInDim S4096x2048 (![] : Fin 0 → Fin S4096x2048.rank)
  reducesTo_S4096x2048_S_d0_1 : S4096x2048.ReducesTo [0, 1] S_
  gather_S4096x64x4_S2048x1_S4096x2048x4_02_1_n_n_1_1_409614_wf : GatherDims.WF S4096x64x4 S2048x1 S4096x2048x4 [0, 2] [1] [] [1] [] 1 ![4096, 1, 4]

variable [Facts]

def gather_S4096x64x4_S2048x1_S4096x2048x4_02_1_n_n_1_1_409614 : GatherDims S4096x64x4 S2048x1 S4096x2048x4 where
  offsetDims := [0, 2]
  collapsedSliceDims := [1]
  operandBatchingDims := []
  startIndicesBatchingDims := []
  startIndexMap := [1]
  indexVectorDim := 1
  sliceSizes := ![4096, 1, 4]
  wf := gather_S4096x64x4_S2048x1_S4096x2048x4_02_1_n_n_1_1_409614_wf
def fn_part4 {F : FTy → Type} [FloatOps F] (main_arg1 : IVec S2048 32) (main_v66 : FVec F S4096x2048 .f32) (main_v75 : IVec S_ 1) (main_c_17 : IVec S_ 32) : IVec S_ 1 :=
  let main_v76 : IVec S2048 32 := broadcastInDim S2048 ![] bcast_S_S2048 main_c_17
  let main_v77 : IVec S2048 1 := cmpi .sge main_arg1 main_v76
  let main_c_18 : IVec S_ 1 := constantI S_ 1 1#1
  let main_v78 : IVec S_ 1 := (fun x v => Host.reduce IntOp.andi x v reducesTo_S2048_S_d0 h_S_) main_v77 main_c_18
  let main_v79 : IVec S_ 1 := andi main_v75 main_v78
  let main_c_19 : IVec S_ 32 := constantI S_ 32 63#32
  let main_v80 : IVec S2048 32 := broadcastInDim S2048 ![] bcast_S_S2048 main_c_19
  let main_v81 : IVec S2048 1 := cmpi .sle main_arg1 main_v80
  let main_c_20 : IVec S_ 1 := constantI S_ 1 1#1
  let main_v82 : IVec S_ 1 := (fun x v => Host.reduce IntOp.andi x v reducesTo_S2048_S_d0 h_S_) main_v81 main_c_20
  let main_v83 : IVec S_ 1 := andi main_v79 main_v82
  let main_cst_21 : FVec F S_ .f32 := constant S_ .f32 0x00000000#32
  let main_v84 : FVec F S4096x2048 .f32 := broadcastInDim S4096x2048 ![] bcast_S_S4096x2048 main_cst_21
  let main_v85 : IVec S4096x2048 1 := cmpf .une main_v66 main_v84
  let main_c_22 : IVec S_ 1 := constantI S_ 1 1#1
  let main_v86 : IVec S_ 1 := (fun x v => Host.reduce IntOp.andi x v reducesTo_S4096x2048_S_d0_1 h_S_) main_v85 main_c_22
  let main_v87 : IVec S_ 1 := andi main_v83 main_v86
  main_v87

def fn_part3 {F : FTy → Type} [FloatOps F] (main_arg0 : FVec F S4096x64x4 .f32) (main_arg1 : IVec S2048 32) (main_arg2 : FVec F S2048x4 .f32) (main_v47 : FVec F S4096x2048x4 .f32) (main_v50 : FVec F S1x2048x1 .f32) (main_v54 : IVec S2048 32) (main_v56 : IVec S2048 1) (main_c_13 : IVec S_ 32) : IVec S_ 1 :=
  let main_v57 : IVec S2048 32 := broadcastInDim S2048 ![] bcast_S_S2048 main_c_13
  let main_v58 : IVec S2048 32 := addi main_v54 main_v57
  let main_v59 : IVec S2048 32 := select main_v56 main_v58 main_v54
  let main_v60 : IVec S2048x1 32 := broadcastInDim S2048x1 ![0] bcast_S2048_S2048x1_0 main_v59
  let main_v61 : FVec F S4096x2048x4 .f32 := (fun x i => Host.gather gather_S4096x64x4_S2048x1_S4096x2048x4_02_1_n_n_1_1_409614 x i) main_arg0 main_v60
  let main_v62 : FVec F S4096x2048x4 .f32 := broadcastInDim S4096x2048x4 ![0, 1, 2] bcast_S1x2048x1_S4096x2048x4_0_1_2 main_v50
  let main_v63 : FVec F S4096x2048x4 .f32 := mulf main_v62 main_v61
  let main_v64 : FVec F S4096x2048x4 .f32 := addf main_v47 main_v63
  let main_v65 : FVec F S4096x2048x1 .f32 := (extractStridedSlice S4096x2048x1 ![0, 0, 3] · slices_S4096x2048x4_S4096x2048x1_0_0_3) main_v64
  let main_v66 : FVec F S4096x2048 .f32 := shapeCast S4096x2048 main_v65 shapeCasts_S4096x2048x1_S4096x2048
  let main_v67 : FVec F S4096x64x4 .f32 := Host.absf main_arg0
  let main_cst : FVec F S_ .f32 := constant S_ .f32 0x7F800000#32
  let main_v68 : FVec F S4096x64x4 .f32 := broadcastInDim S4096x64x4 ![] bcast_S_S4096x64x4 main_cst
  let main_v69 : IVec S4096x64x4 1 := cmpf .olt main_v67 main_v68
  let main_c_14 : IVec S_ 1 := constantI S_ 1 1#1
  let main_v70 : IVec S_ 1 := (fun x v => Host.reduce IntOp.andi x v reducesTo_S4096x64x4_S_d0_1_2 h_S_) main_v69 main_c_14
  let main_v71 : FVec F S2048x4 .f32 := Host.absf main_arg2
  let main_cst_15 : FVec F S_ .f32 := constant S_ .f32 0x7F800000#32
  let main_v72 : FVec F S2048x4 .f32 := broadcastInDim S2048x4 ![] bcast_S_S2048x4 main_cst_15
  let main_v73 : IVec S2048x4 1 := cmpf .olt main_v71 main_v72
  let main_c_16 : IVec S_ 1 := constantI S_ 1 1#1
  let main_v74 : IVec S_ 1 := (fun x v => Host.reduce IntOp.andi x v reducesTo_S2048x4_S_d0_1 h_S_) main_v73 main_c_16
  let main_v75 : IVec S_ 1 := andi main_v70 main_v74
  let main_c_17 : IVec S_ 32 := constantI S_ 32 3#32
  fn_part4 (F := F) main_arg1 main_v66 main_v75 main_c_17

def fn_part2 {F : FTy → Type} [FloatOps F] (main_arg0 : FVec F S4096x64x4 .f32) (main_arg1 : IVec S2048 32) (main_arg2 : FVec F S2048x4 .f32) (main_v30 : FVec F S4096x2048x4 .f32) (main_v33 : FVec F S1x2048x1 .f32) (main_v37 : IVec S2048 32) (main_c_8 : IVec S_ 32) : IVec S_ 1 :=
  let main_v38 : IVec S2048 32 := broadcastInDim S2048 ![] bcast_S_S2048 main_c_8
  let main_v39 : IVec S2048 1 := cmpi .slt main_v37 main_v38
  let main_c_9 : IVec S_ 32 := constantI S_ 32 64#32
  let main_v40 : IVec S2048 32 := broadcastInDim S2048 ![] bcast_S_S2048 main_c_9
  let main_v41 : IVec S2048 32 := addi main_v37 main_v40
  let main_v42 : IVec S2048 32 := select main_v39 main_v41 main_v37
  let main_v43 : IVec S2048x1 32 := broadcastInDim S2048x1 ![0] bcast_S2048_S2048x1_0 main_v42
  let main_v44 : FVec F S4096x2048x4 .f32 := (fun x i => Host.gather gather_S4096x64x4_S2048x1_S4096x2048x4_02_1_n_n_1_1_409614 x i) main_arg0 main_v43
  let main_v45 : FVec F S4096x2048x4 .f32 := broadcastInDim S4096x2048x4 ![0, 1, 2] bcast_S1x2048x1_S4096x2048x4_0_1_2 main_v33
  let main_v46 : FVec F S4096x2048x4 .f32 := mulf main_v45 main_v44
  let main_v47 : FVec F S4096x2048x4 .f32 := addf main_v30 main_v46
  let main_v48 : FVec F S2048x1 .f32 := (extractStridedSlice S2048x1 ![0, 3] · slices_S2048x4_S2048x1_0_3) main_arg2
  let main_v49 : FVec F S2048 .f32 := shapeCast S2048 main_v48 shapeCasts_S2048x1_S2048
  let main_v50 : FVec F S1x2048x1 .f32 := broadcastInDim S1x2048x1 ![1] bcast_S2048_S1x2048x1_1 main_v49
  let main_c_10 : IVec S_ 32 := constantI S_ 32 3#32
  let main_v51 : IVec S2048 32 := broadcastInDim S2048 ![] bcast_S_S2048 main_c_10
  let main_v52 : IVec S2048 32 := subi main_arg1 main_v51
  let main_c_11 : IVec S_ 32 := constantI S_ 32 3#32
  let main_v53 : IVec S2048 32 := broadcastInDim S2048 ![] bcast_S_S2048 main_c_11
  let main_v54 : IVec S2048 32 := addi main_v52 main_v53
  let main_c_12 : IVec S_ 32 := constantI S_ 32 0#32
  let main_v55 : IVec S2048 32 := broadcastInDim S2048 ![] bcast_S_S2048 main_c_12
  let main_v56 : IVec S2048 1 := cmpi .slt main_v54 main_v55
  let main_c_13 : IVec S_ 32 := constantI S_ 32 64#32
  fn_part3 (F := F) main_arg0 main_arg1 main_arg2 main_v47 main_v50 main_v54 main_v56 main_c_13

def fn_part1 {F : FTy → Type} [FloatOps F] (main_arg0 : FVec F S4096x64x4 .f32) (main_arg1 : IVec S2048 32) (main_arg2 : FVec F S2048x4 .f32) (main_v13 : FVec F S4096x2048x4 .f32) (main_v16 : FVec F S1x2048x1 .f32) (main_v18 : IVec S2048 32) (main_c_3 : IVec S_ 32) : IVec S_ 1 :=
  let main_v19 : IVec S2048 32 := broadcastInDim S2048 ![] bcast_S_S2048 main_c_3
  let main_v20 : IVec S2048 32 := addi main_v18 main_v19
  let main_c_4 : IVec S_ 32 := constantI S_ 32 0#32
  let main_v21 : IVec S2048 32 := broadcastInDim S2048 ![] bcast_S_S2048 main_c_4
  let main_v22 : IVec S2048 1 := cmpi .slt main_v20 main_v21
  let main_c_5 : IVec S_ 32 := constantI S_ 32 64#32
  let main_v23 : IVec S2048 32 := broadcastInDim S2048 ![] bcast_S_S2048 main_c_5
  let main_v24 : IVec S2048 32 := addi main_v20 main_v23
  let main_v25 : IVec S2048 32 := select main_v22 main_v24 main_v20
  let main_v26 : IVec S2048x1 32 := broadcastInDim S2048x1 ![0] bcast_S2048_S2048x1_0 main_v25
  let main_v27 : FVec F S4096x2048x4 .f32 := (fun x i => Host.gather gather_S4096x64x4_S2048x1_S4096x2048x4_02_1_n_n_1_1_409614 x i) main_arg0 main_v26
  let main_v28 : FVec F S4096x2048x4 .f32 := broadcastInDim S4096x2048x4 ![0, 1, 2] bcast_S1x2048x1_S4096x2048x4_0_1_2 main_v16
  let main_v29 : FVec F S4096x2048x4 .f32 := mulf main_v28 main_v27
  let main_v30 : FVec F S4096x2048x4 .f32 := addf main_v13 main_v29
  let main_v31 : FVec F S2048x1 .f32 := (extractStridedSlice S2048x1 ![0, 2] · slices_S2048x4_S2048x1_0_2) main_arg2
  let main_v32 : FVec F S2048 .f32 := shapeCast S2048 main_v31 shapeCasts_S2048x1_S2048
  let main_v33 : FVec F S1x2048x1 .f32 := broadcastInDim S1x2048x1 ![1] bcast_S2048_S1x2048x1_1 main_v32
  let main_c_6 : IVec S_ 32 := constantI S_ 32 3#32
  let main_v34 : IVec S2048 32 := broadcastInDim S2048 ![] bcast_S_S2048 main_c_6
  let main_v35 : IVec S2048 32 := subi main_arg1 main_v34
  let main_c_7 : IVec S_ 32 := constantI S_ 32 2#32
  let main_v36 : IVec S2048 32 := broadcastInDim S2048 ![] bcast_S_S2048 main_c_7
  let main_v37 : IVec S2048 32 := addi main_v35 main_v36
  let main_c_8 : IVec S_ 32 := constantI S_ 32 0#32
  fn_part2 (F := F) main_arg0 main_arg1 main_arg2 main_v30 main_v33 main_v37 main_c_8

def fn {F : FTy → Type} [FloatOps F] (main_arg0 : FVec F S4096x64x4 .f32) (main_arg1 : IVec S2048 32) (main_arg2 : FVec F S2048x4 .f32) : IVec S_ 1 :=
  let main_v0 : FVec F S2048x1 .f32 := (extractStridedSlice S2048x1 ![0, 0] · slices_S2048x4_S2048x1_0_0) main_arg2
  let main_v1 : FVec F S2048 .f32 := shapeCast S2048 main_v0 shapeCasts_S2048x1_S2048
  let main_v2 : FVec F S1x2048x1 .f32 := broadcastInDim S1x2048x1 ![1] bcast_S2048_S1x2048x1_1 main_v1
  let main_c : IVec S_ 32 := constantI S_ 32 3#32
  let main_v3 : IVec S2048 32 := broadcastInDim S2048 ![] bcast_S_S2048 main_c
  let main_v4 : IVec S2048 32 := subi main_arg1 main_v3
  let main_c_0 : IVec S_ 32 := constantI S_ 32 0#32
  let main_v5 : IVec S2048 32 := broadcastInDim S2048 ![] bcast_S_S2048 main_c_0
  let main_v6 : IVec S2048 1 := cmpi .slt main_v4 main_v5
  let main_c_1 : IVec S_ 32 := constantI S_ 32 64#32
  let main_v7 : IVec S2048 32 := broadcastInDim S2048 ![] bcast_S_S2048 main_c_1
  let main_v8 : IVec S2048 32 := addi main_v4 main_v7
  let main_v9 : IVec S2048 32 := select main_v6 main_v8 main_v4
  let main_v10 : IVec S2048x1 32 := broadcastInDim S2048x1 ![0] bcast_S2048_S2048x1_0 main_v9
  let main_v11 : FVec F S4096x2048x4 .f32 := (fun x i => Host.gather gather_S4096x64x4_S2048x1_S4096x2048x4_02_1_n_n_1_1_409614 x i) main_arg0 main_v10
  let main_v12 : FVec F S4096x2048x4 .f32 := broadcastInDim S4096x2048x4 ![0, 1, 2] bcast_S1x2048x1_S4096x2048x4_0_1_2 main_v2
  let main_v13 : FVec F S4096x2048x4 .f32 := mulf main_v12 main_v11
  let main_v14 : FVec F S2048x1 .f32 := (extractStridedSlice S2048x1 ![0, 1] · slices_S2048x4_S2048x1_0_1) main_arg2
  let main_v15 : FVec F S2048 .f32 := shapeCast S2048 main_v14 shapeCasts_S2048x1_S2048
  let main_v16 : FVec F S1x2048x1 .f32 := broadcastInDim S1x2048x1 ![1] bcast_S2048_S1x2048x1_1 main_v15
  let main_c_2 : IVec S_ 32 := constantI S_ 32 3#32
  let main_v17 : IVec S2048 32 := broadcastInDim S2048 ![] bcast_S_S2048 main_c_2
  let main_v18 : IVec S2048 32 := subi main_arg1 main_v17
  let main_c_3 : IVec S_ 32 := constantI S_ 32 1#32
  fn_part1 (F := F) main_arg0 main_arg1 main_arg2 main_v13 main_v16 main_v18 main_c_3
-- ==== Kernel.lean ====
abbrev S4096x64x4 : Shape := ⟨3, ![4096, 64, 4]⟩
abbrev S2048 : Shape := ⟨1, ![2048]⟩
abbrev S2048x4 : Shape := ⟨2, ![2048, 4]⟩
abbrev S4096x4x64 : Shape := ⟨3, ![4096, 4, 64]⟩
abbrev S3x4096x2048 : Shape := ⟨3, ![3, 4096, 2048]⟩
abbrev S512x4x64 : Shape := ⟨3, ![512, 4, 64]⟩
abbrev S512 : Shape := ⟨1, ![512]⟩
abbrev S512x4 : Shape := ⟨2, ![512, 4]⟩
abbrev S3x512x512 : Shape := ⟨3, ![3, 512, 512]⟩
abbrev S1x4 : Shape := ⟨2, ![1, 4]⟩
abbrev S4 : Shape := ⟨1, ![4]⟩
abbrev S512x1 : Shape := ⟨2, ![512, 1]⟩
abbrev S4x512 : Shape := ⟨2, ![4, 512]⟩
abbrev S1x64 : Shape := ⟨2, ![1, 64]⟩
abbrev S64 : Shape := ⟨1, ![64]⟩
abbrev S1x64x1 : Shape := ⟨3, ![1, 64, 1]⟩
abbrev S4x1x512 : Shape := ⟨3, ![4, 1, 512]⟩
abbrev S4x64x512 : Shape := ⟨3, ![4, 64, 512]⟩
abbrev S64x512 : Shape := ⟨2, ![64, 512]⟩
abbrev S512x1x64 : Shape := ⟨3, ![512, 1, 64]⟩
abbrev S512x64 : Shape := ⟨2, ![512, 64]⟩
abbrev S512x512 : Shape := ⟨2, ![512, 512]⟩
abbrev S1x512x512 : Shape := ⟨3, ![1, 512, 512]⟩
abbrev S4096x2048x3 : Shape := ⟨3, ![4096, 2048, 3]⟩

abbrev nBuf : Space → Nat
  | .hbm => 6
  | .vmem => 8
  | .smem => 0
  | _ => 0

abbrev bufTy : (tb : Table) → Fin (tcTables nBuf tb) → BufTy
  | .hbm, ⟨0, _⟩ => ⟨S4096x64x4, .f32⟩
  | .hbm, ⟨1, _⟩ => ⟨S2048, .i32⟩
  | .hbm, ⟨2, _⟩ => ⟨S2048x4, .f32⟩
  | .hbm, ⟨3, _⟩ => ⟨S4096x4x64, .f32⟩
  | .hbm, ⟨4, _⟩ => ⟨S3x4096x2048, .f32⟩
  | .hbm, ⟨5, _⟩ => ⟨S4096x2048x3, .f32⟩
  | .local _ .vmem, ⟨0, _⟩ => ⟨S512x4x64, .f32⟩
  | .local _ .vmem, ⟨1, _⟩ => ⟨S512x4x64, .f32⟩
  | .local _ .vmem, ⟨2, _⟩ => ⟨S512, .i32⟩
  | .local _ .vmem, ⟨3, _⟩ => ⟨S512, .i32⟩
  | .local _ .vmem, ⟨4, _⟩ => ⟨S512x4, .f32⟩
  | .local _ .vmem, ⟨5, _⟩ => ⟨S512x4, .f32⟩
  | .local _ .vmem, ⟨6, _⟩ => ⟨S3x512x512, .f32⟩
  | .local _ .vmem, ⟨7, _⟩ => ⟨S3x512x512, .f32⟩
  | _, _ => ⟨S4096x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x64x4_S4096x4x64_0_2_1 : S4096x64x4.Transposes [0, 2, 1] S4096x4x64
  inb_S512x4x64_S512x4x64_0_0_0 : ∀ a, (![0, 0, 0] : Fin 3 → Nat) a + S512x4x64.size a ≤ S512x4x64.size a
  h_S512x4x64 : 0 < S512x4x64.numel
  shapeCasts_S512x4x64_S512x4x64 : S512x4x64.ShapeCasts S512x4x64
  inb_S512_S512_0 : ∀ a, (![0] : Fin 1 → Nat) a + S512.size a ≤ S512.size a
  h_S512 : 0 < S512.numel
  inb_S512x4_S512x4_0_0 : ∀ a, (![0, 0] : Fin 2 → Nat) a + S512x4.size a ≤ S512x4.size a
  h_S512x4 : 0 < S512x4.numel
  iota_S1x4_d1_w32 : S1x4.Iotas .tc 32 [1]
  shapeCasts_S1x4_S4 : S1x4.ShapeCasts S4
  shapeCasts_S512_S512x1 : S512.ShapeCasts S512x1
  shapeCasts_S4_S1x4 : S4.ShapeCasts S1x4
  broadcasts_S512x1_S512x4 : S512x1.Broadcasts S512x4
  broadcasts_S1x4_S512x4 : S1x4.Broadcasts S512x4
  transposes_S512x4_p1_0_S4x512 : S512x4.Transposes [1, 0] S4x512
  iota_S1x64_d1_w32 : S1x64.Iotas .tc 32 [1]
  shapeCasts_S1x64_S64 : S1x64.ShapeCasts S64
  shapeCasts_S64_S1x64x1 : S64.ShapeCasts S1x64x1
  shapeCasts_S4x512_S4x1x512 : S4x512.ShapeCasts S4x1x512
  broadcasts_S1x64x1_S4x64x512 : S1x64x1.Broadcasts S4x64x512
  broadcasts_S4x1x512_S4x64x512 : S4x1x512.Broadcasts S4x64x512
  natLt_1_32 : 1 < 32
  reduces_S4x64x512_S64x512 : S4x64x512.Reduces [0] S64x512
  bitsLt_bf16_f32 : FTy.bits .bf16 < FTy.bits .f32
  slices_S512x4x64_o0_0_0_S512x1x64 : S512x4x64.Slices ![0, 0, 0] S512x1x64
  shapeCasts_S512x1x64_S512x64 : S512x1x64.ShapeCasts S512x64
  slices_S512x4x64_o0_1_0_S512x1x64 : S512x4x64.Slices ![0, 1, 0] S512x1x64
  slices_S512x4x64_o0_2_0_S512x1x64 : S512x4x64.Slices ![0, 2, 0] S512x1x64
  slices_S512x4x64_o0_3_0_S512x1x64 : S512x4x64.Slices ![0, 3, 0] S512x1x64
  shapeCasts_S512x512_S1x512x512 : S512x512.ShapeCasts S1x512x512
  concatenates_S1x512x512_S1x512x512_S1x512x512_S3x512x512_d0 : Shape.Concatenates [S1x512x512, S1x512x512, S1x512x512] S3x512x512 0
  inb_S3x512x512_S3x512x512_0_0_0 : ∀ a, (![0, 0, 0] : Fin 3 → Nat) a + S3x512x512.size a ≤ S3x512x512.size a
  h_S3x512x512 : 0 < S3x512x512.numel
  transposes_S3x4096x2048_S4096x2048x3_1_2_0 : S3x4096x2048.Transposes [1, 2, 0] S4096x2048x3
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4x64.size a ≤ S4096x4x64.size a
  hwx0_0 : ∀ i : grid0.Coords, EltTy.bits .f32 = 32 ∨ (Rect.block (s := S4096x4x64) S512x4x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S2048.size a
  hwx0_1 : ∀ i : grid0.Coords, EltTy.bits .i32 = 32 ∨ (Rect.block (s := S2048) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S2048x4.size a
  hwx0_2 : ∀ i : grid0.Coords, EltTy.bits .f32 = 32 ∨ (Rect.block (s := S2048x4) S512x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x512x512.size a ≤ S3x4096x2048.size a
  hwx0_3 : ∀ i : grid0.Coords, EltTy.bits .f32 = 32 ∨ (Rect.block (s := S3x4096x2048) S3x512x512.size (cc0_transform_3 i) (hinb0_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_v0) S512x4x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64x4 : Shape := ⟨3, ![4096, 64, 4]⟩
abbrev S2048 : Shape := ⟨1, ![2048]⟩
abbrev S2048x4 : Shape := ⟨2, ![2048, 4]⟩
abbrev S2048x1 : Shape := ⟨2, ![2048, 1]⟩
abbrev S1x2048x1 : Shape := ⟨3, ![1, 2048, 1]⟩
abbrev S_ : Shape := ⟨0, ![]⟩
abbrev S4096x2048x4 : Shape := ⟨3, ![4096, 2048, 4]⟩
abbrev S4096x2048x3 : Shape := ⟨3, ![4096, 2048, 3]⟩
abbrev S4096x2048x1 : Shape := ⟨3, ![4096, 2048, 1]⟩
abbrev S4096x2048 : Shape := ⟨2, ![4096, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x64x4, .f32⟩
  | .hbm, ⟨1, _⟩ => ⟨S2048, .i32⟩
  | .hbm, ⟨2, _⟩ => ⟨S2048x4, .f32⟩
  | .hbm, ⟨3, _⟩ => ⟨S2048x1, .f32⟩
  | .hbm, ⟨4, _⟩ => ⟨S2048, .f32⟩
  | .hbm, ⟨5, _⟩ => ⟨S1x2048x1, .f32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S4096x2048x4, .f32⟩
  | .hbm, ⟨18, _⟩ => ⟨S4096x2048x4, .f32⟩
  | .hbm, ⟨19, _⟩ => ⟨S4096x2048x4, .f32⟩
  | .hbm, ⟨20, _⟩ => ⟨S2048x1, .f32⟩
  | .hbm, ⟨21, _⟩ => ⟨S2048, .f32⟩
  | .hbm, ⟨22, _⟩ => ⟨S1x2048x1, .f32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S4096x2048x4, .f32⟩
  | .hbm, ⟨38, _⟩ => ⟨S4096x2048x4, .f32⟩
  | .hbm, ⟨39, _⟩ => ⟨S4096x2048x4, .f32⟩
  | .hbm, ⟨40, _⟩ => ⟨S4096x2048x4, .f32⟩
  | .hbm, ⟨41, _⟩ => ⟨S2048x1, .f32⟩
  | .hbm, ⟨42, _⟩ => ⟨S2048, .f32⟩
  | .hbm, ⟨43, _⟩ => ⟨S1x2048x1, .f32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S4096x2048x4, .f32⟩
  | .hbm, ⟨59, _⟩ => ⟨S4096x2048x4, .f32⟩
  | .hbm, ⟨60, _⟩ => ⟨S4096x2048x4, .f32⟩
  | .hbm, ⟨61, _⟩ => ⟨S4096x2048x4, .f32⟩
  | .hbm, ⟨62, _⟩ => ⟨S2048x1, .f32⟩
  | .hbm, ⟨63, _⟩ => ⟨S2048, .f32⟩
  | .hbm, ⟨64, _⟩ => ⟨S1x2048x1, .f32⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S_, .i32⟩
  | .hbm, ⟨72, _⟩ => ⟨S2048, .i32⟩
  | .hbm, ⟨73, _⟩ => ⟨S2048, .i1⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S2048, .i32⟩
  | .hbm, ⟨78, _⟩ => ⟨S2048x1, .i32⟩
  | .hbm, ⟨79, _⟩ => ⟨S4096x2048x4, .f32⟩
  | .hbm, ⟨80, _⟩ => ⟨S4096x2048x4, .f32⟩
  | .hbm, ⟨81, _⟩ => ⟨S4096x2048x4, .f32⟩
  | .hbm, ⟨82, _⟩ => ⟨S4096x2048x4, .f32⟩
  | .hbm, ⟨83, _⟩ => ⟨S4096x2048x3, .f32⟩
  | .hbm, ⟨84, _⟩ => ⟨S4096x2048x1, .f32⟩
  | .hbm, ⟨85, _⟩ => ⟨S4096x2048, .f32⟩
  | .hbm, ⟨86, _⟩ => ⟨S4096x2048x1, .f32⟩
  | .hbm, ⟨87, _⟩ => ⟨S4096x2048x3, .f32⟩
  | .hbm, ⟨88, _⟩ => ⟨S4096x2048x3, .f32⟩
  | _, _ => ⟨S4096x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_10 : Ref sig .tc := ⟨.hbm, 65, rfl⟩
abbrev main_v51 : Ref sig .tc := ⟨.hbm, 66, rfl⟩
abbrev main_v52 : Ref sig .tc := ⟨.hbm, 67, rfl⟩
abbrev main_c_11 : Ref sig .tc := ⟨.hbm, 68, rfl⟩
abbrev main_v53 : Ref sig .tc := ⟨.hbm, 69, rfl⟩
abbrev main_v54 : Ref sig .tc := ⟨.hbm, 70, rfl⟩
abbrev main_c_12 : Ref sig .tc := ⟨.hbm, 71, rfl⟩
abbrev main_v55 : Ref sig .tc := ⟨.hbm, 72, rfl⟩
abbrev main_v56 : Ref sig .tc := ⟨.hbm, 73, rfl⟩
abbrev main_c_13 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]

class Facts₀ : Prop where
  slices_S2048x4_S2048x1_0_0 : S2048x4.Slices ![0, 0] S2048x1
  shapeCasts_S2048x1_S2048 : S2048x1.ShapeCasts S2048
  bcast_S2048_S1x2048x1_1 : S2048.BroadcastsInDim S1x2048x1 (![1] : Fin 1 → Fin S1x2048x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S1x2048x1_S4096x2048x4_0_1_2 : S1x2048x1.BroadcastsInDim S4096x2048x4 (![0, 1, 2] : Fin 3 → Fin S4096x2048x4.rank)
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  slices_S4096x2048x4_S4096x2048x3_0_0_0 : S4096x2048x4.Slices ![0, 0, 0] S4096x2048x3
  slices_S4096x2048x4_S4096x2048x1_0_0_3 : S4096x2048x4.Slices ![0, 0, 3] S4096x2048x1
  shapeCasts_S4096x2048x1_S4096x2048 : S4096x2048x1.ShapeCasts S4096x2048
  bcast_S4096x2048_S4096x2048x1_0_1 : S4096x2048.BroadcastsInDim S4096x2048x1 (![0, 1] : Fin 2 → Fin S4096x2048x1.rank)
  bcast_S4096x2048x1_S4096x2048x3_0_1_2 : S4096x2048x1.BroadcastsInDim S4096x2048x3 (![0, 1, 2] : Fin 3 → Fin S4096x2048x3.rank)
  gather_S4096x64x4_S2048x1_S4096x2048x4_02_1_n_n_1_1_409614_wf : GatherDims.WF S4096x64x4 S2048x1 S4096x2048x4 [0, 2] [1] [] [1] [] 1 ![4096, 1, 4]

variable [Facts₀]

def gather_S4096x64x4_S2048x1_S4096x2048x4_02_1_n_n_1_1_409614 : GatherDims S4096x64x4 S2048x1 S4096x2048x4 where
  offsetDims := [0, 2]
  collapsedSliceDims := [1]
  operandBatchingDims := []
  startIndicesBatchingDims := []
  startIndexMap := [1]
  indexVectorDim := 1
  sliceSizes := ![4096, 1, 4]
  wf := gather_S4096x64x4_S2048x1_S4096x2048x4_02_1_n_n_1_1_409614_wf

class Facts : Prop extends Facts₀ where

variable [Facts]
-- ==== Proof.Spec.lean ====
/-
  The mathematics of the rational B-spline curve evaluation, stated once over plain index types, with no program in sight.

  Inputs: control points `cp[b, n, d]` (4096 curves, 64 control points, 4 homogeneous channels, the last one the
  weight), one knot-span word `sp[s]` per sample (2048 samples) and four basis values `bs[s, j]`.
  Sample `s` of curve `b` is the homogeneous combination
      curve b s d = Σ_{j<4} bs[s, j] · cp[b, sp[s] − 3 + j, d]
  and the result is its first three channels divided by the fourth (the rational, or homogeneous, divide).

  Two readings of that combination are defined here:
  * `curve` reads the four rows directly (`row`), the four products added left to right;
  * `mmv … (wgt …)` first spreads the four basis values over the 64 control points (`wgt sp β n` is the sum of the
    `β j` whose row `sp − 3 + j` is `n`: a one-hot selection, `hot`) and then contracts the control-point axis.
  The second times the reciprocal of its weight channel is `pix`; the first divided by its weight channel is `Gat`.
  Algebra.lean proves them equal on finite inputs whose rows are in range and whose weight channel is not zero.
-/
import Idealize.ShloMosaic.PureOps.Ideal
import Idealize.ShloMosaic.Lib.ValueIdx

noncomputable section

open scoped BigOperators

namespace Cert.CurveSpec

open Idealize.ShloMosaic Idealize.ShloMosaic.ValueIdx

/-- Control points `[4096, 64, 4]`, span words `[2048]`, basis values `[2048, 4]`, at the ideal instance. -/
abbrev CP : Type := (⟨3, ![4096, 64, 4]⟩ : Shape).Idx → EReal
abbrev SP : Type := (⟨1, ![2048]⟩ : Shape).Idx → BitVec 32
abbrev BS : Type := (⟨2, ![2048, 4]⟩ : Shape).Idx → EReal
/-- The result `[4096, 2048, 3]`. -/
abbrev RES : Type := (⟨3, ![4096, 2048, 3]⟩ : Shape).Idx → EReal

/-! ## The direct reading -/

/-- The control-point row basis function `j` of a sample with span word `sp` reads: `sp − 3 + j`, the word read as
    a signed integer (kept inside the 64 rows, so that the definition is total; on spans in range nothing is cut). -/
def row (sp : BitVec 32) (j : Fin 4) : Fin 64 := ⟨min (sp.toInt - 3 + (j.val : ℤ)).toNat 63, by omega⟩

/-- Homogeneous channel `d` of sample `s` of curve `b`: the four basis values times the four rows, added left to
    right. -/
def curve (cp : CP) (sp : SP) (bs : BS) (b : Fin 4096) (s : Fin 2048) (d : Fin 4) : EReal :=
  bs (ix2 s (0 : Fin 4)) * cp (ix3 b (row (sp (ix1 s)) 0) d) + bs (ix2 s (1 : Fin 4)) * cp (ix3 b (row (sp (ix1 s)) 1) d)
    + bs (ix2 s (2 : Fin 4)) * cp (ix3 b (row (sp (ix1 s)) 2) d) + bs (ix2 s (3 : Fin 4)) * cp (ix3 b (row (sp (ix1 s)) 3) d)

/-- Spatial channel `c` of the evaluated point: the channel over the weight channel. -/
def Gat (cp : CP) (sp : SP) (bs : BS) (b : Fin 4096) (s : Fin 2048) (c : Fin 3) : EReal :=
  Ideal.div (curve cp sp bs b s ⟨c.val, by omega⟩) (curve cp sp bs b s (3 : Fin 4))

/-- The whole result array. -/
def G (cp : CP) (sp : SP) (bs : BS) : RES := fun i => Gat cp sp bs (i 0) (i 1) (i 2)

/-! ## The reading through a one-hot weight matrix -/

/-- `1` when control point `n` is the row `sp − 3 + j` (compared as 32-bit words), else `0`: the bit widened to a
    word and read as a number. -/
def hot (sp : BitVec 32) (j : Fin 4) (n : Fin 64) : EReal :=
  ((((IntOp.cmpi .eq (BitVec.ofNat 32 n.val) (IntOp.addi (IntOp.subi sp 3#32) (BitVec.ofNat 32 j.val))).setWidth 32).toInt : ℝ) : EReal)

/-- The weight control point `n` gets from a sample: the basis values of the basis functions whose row is `n`. -/
def wgt (sp : BitVec 32) (β : Fin 4 → EReal) (n : Fin 64) : EReal := ∑ j : Fin 4, hot sp j n * β j

/-- A contraction over the 64 control points. -/
def mmv (x w : Fin 64 → EReal) : EReal := ∑ n : Fin 64, x n * w n

/-- One result element from one curve's control points `x d n` (channel, control point), one sample's span word and its
    four basis values: the contracted channel times the reciprocal of the contracted weight channel. -/
def pix (x : Fin 4 → Fin 64 → EReal) (sp : BitVec 32) (β : Fin 4 → EReal) (c : Fin 3) : EReal :=
  mmv (x ⟨c.val, by omega⟩) (wgt sp β) * Ideal.div 1 (mmv (x (3 : Fin 4)) (wgt sp β))

/-- The whole result array that way. -/
def Kres (cp : CP) (sp : SP) (bs : BS) : RES := fun i =>
  pix (fun d n => cp (ix3 (i 0) n d)) (sp (ix1 (i 1))) (fun j => bs (ix2 (i 1) j)) (i 2)

/-! ## The domain -/

/-- Every control point is a real number. -/
def FinCP (cp : CP) : Prop := ∀ i, ∃ r : ℝ, cp i = (r : EReal)
/-- Every basis value is a real number. -/
def FinBS (bs : BS) : Prop := ∀ i, ∃ r : ℝ, bs i = (r : EReal)
/-- Every span word, read signed, lies in `[3, 63]`: the four rows `sp − 3 … sp` are rows of the table. -/
def InRange (sp : SP) : Prop := ∀ s : Fin 2048, 3 ≤ (sp (ix1 s)).toInt ∧ (sp (ix1 s)).toInt ≤ 63
/-- The weight channel of every sample of every curve is not zero. -/
def DenNZ (cp : CP) (sp : SP) (bs : BS) : Prop := ∀ (b : Fin 4096) (s : Fin 2048), curve cp sp bs b s (3 : Fin 4) ≠ 0

end Cert.CurveSpec

end
-- ==== Proof.PreFacts.lean ====
/-
  What the precondition says, read off its printed predicate: every control point and every basis value is a real
  number, every span word lies in [3, 63], and the reference's own weight channel (its stage `val_main_v67`: the fourth
  channel of the homogeneous combination, the number it divides by) is nowhere zero.
-/
import proofs.«414962_j1116691497254_3_alg».proof.Pre_finite_inputs
import proofs.«414962_j1116691497254_3_alg».proof.Proof.Gen.Pre_finite_inputs
import proofs.«414962_j1116691497254_3_alg».proof.Proof.Gen.ReferenceIdeal.Read
import proofs.«414962_j1116691497254_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.CurveSpec

/-- A shape of rank 0 has one index. -/
instance subsingletonScalarIdx : Subsingleton Cert.Pre_finite_inputs.S_.Idx := ⟨fun _ _ => funext fun d => d.elim0⟩

/-! ## The element facts -/

/-- The word `0x7F800000` is `+∞`. -/
theorem inf_bits : Ideal.ofBits .f32 0x7F800000#32 = ⊤ := by simp [Ideal.ofBits, Ideal.ieee]

/-- `|x| < +∞` (the absolute value being `max x (−x)`) says `x` is neither infinity: a real number. -/
theorem real_of_abs_lt (x : EReal)
    (h : Ideal.cmp .olt (max x (-x)) (Ideal.ofBits .f32 0x7F800000#32) = 1#1) : ∃ r : ℝ, x = (r : EReal) := by
  rw [inf_bits] at h
  simp only [Ideal.cmp, StableHlo.Predicate.ofBool_eq_one_iff, decide_eq_true_eq] at h
  induction x using EReal.rec with
  | bot => simp at h
  | coe r => exact ⟨r, rfl⟩
  | top => simp at h

/-- The zero word is `0`. -/
theorem zero_bits : Ideal.ofBits .f32 0x00000000#32 = 0 := by simp [Ideal.ofBits, Ideal.ieee]

/-- `x ≠ 0` as a comparison against the zero word. -/
theorem ne_zero_of_une (x : EReal) (h : Ideal.cmp .une x (Ideal.ofBits .f32 0x00000000#32) = 1#1) : x ≠ 0 := by
  rw [zero_bits] at h
  simpa only [Ideal.cmp, StableHlo.Predicate.ofBool_eq_one_iff, decide_eq_true_eq] using h

/-- A word at least `3` and at most `63`, both read signed. -/
theorem span_of_cmp (w : BitVec 32) (h3 : IntOp.cmpi .sge w 3#32 = 1#1) (h63 : IntOp.cmpi .sle w 63#32 = 1#1) :
    3 ≤ w.toInt ∧ w.toInt ≤ 63 := by
  have a := IntOp.cmpi_sge.1 h3
  have b := IntOp.cmpi_sle.1 h63
  have e3 : (3#32 : BitVec 32).toInt = 3 := by decide
  have e63 : (63#32 : BitVec 32).toInt = 63 := by decide
  rw [e3] at a; rw [e63] at b
  exact ⟨a, b⟩

/-! ## The predicate, read

  The predicate's result is the conjunction of five all-reductions. Read at its one index and split, each
  reduction says its compared array is `1` at every index; each such bit is one of the element facts above.
  The array the fifth reduction compares against zero is the predicate's own copy of the homogeneous
  combination's weight channel: the same operations on the same arguments as the reference's stages up to
  `val_main_v67`, so the two are the same term once the stages' definitions are opened (nothing is evaluated). -/

theorem facts_of_pre (a0 : CP) (a1 : SP) (a2 : BS)
    (h : Cert.Pre_finite_inputs.fn (F := Ideal) a0 a1 a2 = fun _ => 1#1) :
    FinCP a0 ∧ FinBS a2 ∧ InRange a1 ∧
      ∀ (b : Fin 4096) (s : Fin 2048), Cert.ReferenceIdeal.Read.val_main_v67 (F := Ideal) a0 a1 a2 (ix2 b s) ≠ 0 := by
  -- the result at its one index, with the chain of operations opened
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- a conjunction of bits is 1 when both are
  obtain ⟨h1, h86⟩ := IntOp.andi_eq_one.1 h0
  obtain ⟨h2, h82⟩ := IntOp.andi_eq_one.1 h1
  obtain ⟨h3, h78⟩ := IntOp.andi_eq_one.1 h2
  obtain ⟨h70, h74⟩ := IntOp.andi_eq_one.1 h3
  -- an all-reduction that is 1 met a 1 at every index
  have k70 := fun i => Host.reduce_andi_all _ _ _ _ _ h70 i
  have k74 := fun i => Host.reduce_andi_all _ _ _ _ _ h74 i
  have k78 := fun i => Host.reduce_andi_all _ _ _ _ _ h78 i
  have k82 := fun i => Host.reduce_andi_all _ _ _ _ _ h82 i
  have k86 := fun i => Host.reduce_andi_all _ _ _ _ _ h86 i
  refine ⟨fun i => real_of_abs_lt (a0 i) (k70 i), fun i => real_of_abs_lt (a2 i) (k74 i),
    fun s => span_of_cmp (a1 (ix1 s)) (k78 (ix1 s)) (k82 (ix1 s)), fun b s => ne_zero_of_une _ ?_⟩
  -- the compared array is the reference's weight channel, stage for stage
  exact k86 (ix2 b s)

end Cert.PreFacts

end
-- ==== Proof.Layouts.lean ====
/-
  Layout operations read at an index, at the few small ranks the curve kernel's body meets and the library's list does
  not have: a vector made a column, a column spread over columns, a vector set between two unit axes, a unit axis put
  between or taken from between two axes, and the two broadcasts of a rank-3 array along its unit axes.
-/
import Idealize.ShloMosaic.Lib.Pipeline.Value
import Idealize.ShloMosaic.Lib.ValueIdx

noncomputable section

namespace Cert.Layouts

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` cast to `[a]` reads, at `i`, the column at `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[1, a, 1]` reads, at `(u, i, w)`, the operand at `i`. -/
theorem shapeCast_a_1a1_apply {a : ℕ} (x : (⟨1, ![a]⟩ : Shape).Idx → α) (h : (⟨1, ![a]⟩ : Shape).ShapeCasts ⟨3, ![1, a, 1]⟩)
    (u : Fin 1) (i : Fin a) (w : Fin 1) : shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[1, b, 1]` array broadcast to `[a, b, c]` reads, at `(p, n, q)`, the operand at `n`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (n : Fin b) (q : Fin c) :
    broadcastTo ⟨3, ![a, b, c]⟩ v h (ix3 p n q) = v (ix3 (0 : Fin 1) n (0 : Fin 1)) := by
  refine broadcastTo_apply v h (ix3 p n q) (ix3 (0 : Fin 1) n (0 : Fin 1)) fun ax => ?_
  match ax with
  | ⟨0, _⟩ => rfl
  | ⟨1, _⟩ =>
    show n.val = if b = 1 then 0 else n.val
    split
    · have := n.isLt; omega
    · rfl
  | ⟨2, _⟩ => rfl

/-- An `[a, 1, c]` array broadcast to `[a, b, c]` reads, at `(p, n, q)`, the operand at `(p, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (q : Fin c) :
    broadcastTo ⟨3, ![a, b, c]⟩ v h (ix3 p n q) = v (ix3 p (0 : Fin 1) q) := by
  refine broadcastTo_apply v h (ix3 p n q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

end Cert.Layouts

end
-- ==== Proof.KernelBlock.lean ====
/-
  One output block of the kernel at one of its elements: channel `c`, curve `p` and sample `q` of the block hold the
  contraction of that curve's control points with that sample's one-hot weights, times the reciprocal of the same
  contraction of the weight channel (`CurveSpec.pix`).

  The body builds, for its 512 samples, the 64 × 512 weight matrix `W[n, q] = Σ_j [n = span[q] − 3 + j] · basis[q, j]`
  (an equality test of two index words, widened and converted, times the transposed basis values, summed over the
  four basis functions), multiplies each of the four channel slices `cp[·, d, ·]` (512 × 64) by it, takes the reciprocal of
  the fourth product and stores the first three products times that reciprocal, stacked on a new leading axis.
-/
import proofs.«414962_j1116691497254_3_alg».proof.Proof.Gen.KernelIdeal.Frame
import proofs.«414962_j1116691497254_3_alg».proof.Proof.Spec
import proofs.«414962_j1116691497254_3_alg».proof.Proof.Layouts
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.CurveSpec Cert.Layouts

/-! ## The one-hot weight matrix of a tile -/

/-- The source index of a sum over the leading axis: result index `(n, q)` with `k` put in front. -/
theorem lift_eq (h : S4x64x512.Reduces [0] S64x512) (n : Fin 64) (q : Fin 512) (k : Fin 4) :
    h.lift (ix2 n q) k = ix3 k n q := by
  funext c
  apply Fin.ext
  show h.liftVal (ix2 n q) k.val c = (ix3 k n q c).val
  match c with
  | ⟨0, _⟩ => simp [Shape.Reduces.liftVal]
  | ⟨1, _⟩ => simp [Shape.Reduces.liftVal]
  | ⟨2, _⟩ => simp [Shape.Reduces.liftVal]

/-- The control-point number, as the word the body compares: an iota along the 64 control points, set between two unit
    axes and spread over basis functions and samples. -/
theorem ctrl_word_apply (hi : S1x64.Iotas .tc 32 [1]) (h1 : S1x64.ShapeCasts S64) (h2 : S64.ShapeCasts S1x64x1)
    (h3 : S1x64x1.Broadcasts S4x64x512) (k : Fin 4) (n : Fin 64) (q : Fin 512) :
    broadcastTo S4x64x512 (shapeCast S1x64x1 (shapeCast S64 (iota .tc S1x64 32 [1] hi) h1) h2) h3 (ix3 k n q)
      = BitVec.ofNat 32 n.val :=
  (broadcastTo_1b1_abc_apply _ h3 k n q).trans ((shapeCast_a_1a1_apply _ h2 0 n 0).trans
    ((shapeCast_1a_a_apply _ h1 n).trans (iota_single_apply .tc S1x64 32 1 hi (ix2 (0 : Fin 1) n))))

/-- The row word of basis function `k` of sample `q`: the sample's span word minus three plus `k`, transposed to
    (basis function, sample) and spread over the control points. -/
theorem row_word_apply (x1 : IVec S512 32) (hi : S1x4.Iotas .tc 32 [1]) (g1 : S1x4.ShapeCasts S4) (g2 : S4.ShapeCasts S1x4)
    (g3 : S1x4.Broadcasts S512x4) (g4 : S512.ShapeCasts S512x1) (g5 : S512x1.Broadcasts S512x4)
    (g6 : S512x4.Transposes [1, 0] S4x512) (g7 : S4x512.ShapeCasts S4x1x512) (g8 : S4x1x512.Broadcasts S4x64x512)
    (k : Fin 4) (n : Fin 64) (q : Fin 512) :
    broadcastTo S4x64x512 (shapeCast S4x1x512 (transpose S4x512 [1, 0]
        (addi (broadcastTo S512x4 (subi (shapeCast S512x1 x1 g4) (broadcast S512x1 3#32)) g5)
          (broadcastTo S512x4 (shapeCast S1x4 (shapeCast S4 (iota .tc S1x4 32 [1] hi) g1) g2) g3)) g6) g7) g8 (ix3 k n q)
      = IntOp.addi (IntOp.subi (x1 (ix1 q)) 3#32) (BitVec.ofNat 32 k.val) := by
  refine (broadcastTo_a1c_abc_apply _ g8 k n q).trans ((shapeCast_ab_a1b_apply _ g7 k 0 q).trans
    ((transpose_ix2_apply _ g6 k q).trans ?_))
  show IntOp.addi (broadcastTo S512x4 (subi (shapeCast S512x1 x1 g4) (broadcast S512x1 3#32)) g5 (ix2 q k))
      (broadcastTo S512x4 (shapeCast S1x4 (shapeCast S4 (iota .tc S1x4 32 [1] hi) g1) g2) g3 (ix2 q k)) = _
  rw [broadcastTo_a1_ab_apply _ g5 q k, broadcastTo_1b_ab_apply _ g3 q k, shapeCast_a_1a_apply _ g2 0 k,
    shapeCast_1a_a_apply _ g1 k, iota_single_apply .tc S1x4 32 1 hi (ix2 (0 : Fin 1) k)]
  show IntOp.addi (IntOp.subi (shapeCast S512x1 x1 g4 (ix2 q (0 : Fin 1))) 3#32) _ = _
  rw [shapeCast_a_a1_apply _ g4 q 0]

/-- The basis value of basis function `k` of sample `q`, transposed and spread over the control points. -/
theorem basis_apply (x2 : FVec Ideal S512x4 .f32) (g6 : S512x4.Transposes [1, 0] S4x512) (g7 : S4x512.ShapeCasts S4x1x512)
    (g8 : S4x1x512.Broadcasts S4x64x512) (k : Fin 4) (n : Fin 64) (q : Fin 512) :
    broadcastTo S4x64x512 (shapeCast S4x1x512 (transpose S4x512 [1, 0] x2 g6) g7) g8 (ix3 k n q) = x2 (ix2 q k) :=
  (broadcastTo_a1c_abc_apply _ g8 k n q).trans ((shapeCast_ab_a1b_apply _ g7 k 0 q).trans (transpose_ix2_apply _ g6 k q))

/-- An equality bit, widened and converted, read at an index. -/
theorem onehot_apply (L R : IVec S4x64x512 32) (h : 1 < 32) (i : S4x64x512.Idx) :
    (sitofp .f32 (extui 32 (cmpi .eq L R) h) : FVec Ideal S4x64x512 .f32) i
      = ((((IntOp.cmpi .eq (L i) (R i)).setWidth 32).toInt : ℝ) : EReal) := rfl

/-- Entry `(n, q)` of the tile's weight matrix: the basis values of sample `q` whose row is control point `n`. -/
theorem wt_apply (x1 : Vec Ideal S512 .i32) (x2 : Vec Ideal S512x4 .f32) (n : Fin 64) (q : Fin 512) :
    k0_pay2 (F := Ideal) x1 x2 (ix2 n q) = wgt (x1 (ix1 q)) (fun j => x2 (ix2 q j)) n := by
  unfold k0_pay2
  try dsimp only
  refine (Ideal.multiReduction_add_single (φ := .f32) _ 0x00000000#32 reduces_S4x64x512_S64x512 (.inl rfl) rfl (ix2 n q)).trans ?_
  unfold wgt
  refine Finset.sum_congr rfl fun (k : Fin 4) _ => ?_
  rw [lift_eq reduces_S4x64x512_S64x512 n q k]
  refine (mulf_apply _ _ _).trans ?_
  rw [onehot_apply, ctrl_word_apply, row_word_apply, basis_apply]
  rfl

/-- The tile's weight matrix, column `q`, is the one-hot weight vector of sample `q`. -/
theorem W_eq (x1 : Vec Ideal S512 .i32) (x2 : Vec Ideal S512x4 .f32) (q : Fin 512) :
    (fun n : Fin 64 => k0_pay2 (F := Ideal) x1 x2 (ix2 n q)) = wgt (x1 (ix1 q)) (fun j => x2 (ix2 q j)) :=
  funext fun n => wt_apply x1 x2 n q

/-! ## A channel's product with the weight matrix -/

/-- The product's dimension numbers: [512, 64] by [64, 512], contracting the 64 control points. -/
abbrev Dmm := dot_S512x64_S64x512_S512x512_1_0_0_1_n_n

theorem lhs_0 (j : S512x512.Idx) (k : Dmm.contr.Idx) : (Dmm.lhsIdx j k 0 : ℕ) = j 0 := by
  simp [DotDims.lhsIdx, Dmm, dot_S512x64_S64x512_S512x512_1_0_0_1_n_n]; rfl
theorem lhs_1 (j : S512x512.Idx) (k : Dmm.contr.Idx) : (Dmm.lhsIdx j k 1 : ℕ) = k ⟨0, by decide⟩ := by
  simp [DotDims.lhsIdx, Dmm, dot_S512x64_S64x512_S512x512_1_0_0_1_n_n]; rfl
theorem rhs_0 (j : S512x512.Idx) (k : Dmm.contr.Idx) : (Dmm.rhsIdx j k 0 : ℕ) = k ⟨0, by decide⟩ := by
  simp [DotDims.rhsIdx, Dmm, dot_S512x64_S64x512_S512x512_1_0_0_1_n_n]; rfl
theorem rhs_1 (j : S512x512.Idx) (k : Dmm.contr.Idx) : (Dmm.rhsIdx j k 1 : ℕ) = j 1 := by
  simp [DotDims.rhsIdx, Dmm, dot_S512x64_S64x512_S512x512_1_0_0_1_n_n]; rfl

/-- The control points as the products read them: the block itself (a change of format is the identity). -/
theorem cpb_apply (x0 : Vec Ideal S512x4x64 .f32) (i : S512x4x64.Idx) : k0_pay3 (F := Ideal) x0 i = x0 i := by
  unfold k0_pay3
  try dsimp only
  show shapeCast S512x4x64 x0 _ i = x0 i
  rw [shapeCast_self]

/-- Channel `d` of the block times a weight matrix, at curve `p` and sample `q`: the contraction over the control points. -/
theorem mm_apply (x0 : Vec Ideal S512x4x64 .f32) (W : FVec Ideal S64x512 .bf16) (d : Fin 4)
    (hs : S512x4x64.Slices ![0, d.val, 0] S512x1x64) (hc : S512x1x64.ShapeCasts S512x64) (p q : Fin 512) :
    matmul Dmm none (shapeCast S512x64 (extractStridedSlice S512x1x64 ![0, d.val, 0] (k0_pay3 (F := Ideal) x0) hs) hc) W
        (constant S512x512 .f32 0x00000000#32) (ix2 p q)
      = mmv (fun n => x0 (ix3 p d n)) (fun n => W (ix2 n q)) := by
  refine (Ideal.matmul_constant_zero_apply Dmm none _ W (ix2 p q)).trans ?_
  unfold mmv
  rw [← Equiv.sum_comp (contrEquiv1 Dmm 64 rfl rfl).symm]
  refine Finset.sum_congr rfl fun n _ => ?_
  have el : Dmm.lhsIdx (ix2 p q) ((contrEquiv1 Dmm 64 rfl rfl).symm n) = ix2 p n :=
    Shape.idx_ext₂ (lhs_0 _ _) ((lhs_1 _ _).trans (contrEquiv1_symm_val Dmm 64 rfl rfl n))
  have er : Dmm.rhsIdx (ix2 p q) ((contrEquiv1 Dmm 64 rfl rfl).symm n) = ix2 n q :=
    Shape.idx_ext₂ ((rhs_0 _ _).trans (contrEquiv1_symm_val Dmm 64 rfl rfl n)) (rhs_1 _ _)
  rw [el, er, shapeCast_a1b_ab_apply _ hc p n, slice3_axis1_apply d.val _ hs p 0 n d (by simp), cpb_apply]

/-! ## The four payloads -/

theorem pay7_apply (x0 : Vec Ideal S512x4x64 .f32) (x1 : Vec Ideal S512 .i32) (x2 : Vec Ideal S512x4 .f32) (p q : Fin 512) :
    k0_pay7 (F := Ideal) x0 x1 x2 (ix2 p q)
      = mmv (fun n => x0 (ix3 p (0 : Fin 4) n)) (wgt (x1 (ix1 q)) (fun j => x2 (ix2 q j))) * k0_pay6 (F := Ideal) x0 x1 x2 (ix2 p q) := by
  unfold k0_pay7
  try dsimp only
  refine (mulf_apply _ _ _).trans ?_
  refine congrArg (· * _) ?_
  refine (mm_apply x0 (k0_pay2 (F := Ideal) x1 x2) 0 _ _ p q).trans ?_
  rw [W_eq]

theorem pay4_apply (x0 : Vec Ideal S512x4x64 .f32) (x1 : Vec Ideal S512 .i32) (x2 : Vec Ideal S512x4 .f32) (p q : Fin 512) :
    k0_pay4 (F := Ideal) x0 x1 x2 (ix2 p q)
      = mmv (fun n => x0 (ix3 p (1 : Fin 4) n)) (wgt (x1 (ix1 q)) (fun j => x2 (ix2 q j))) := by
  unfold k0_pay4
  try dsimp only
  refine (mm_apply x0 (k0_pay2 (F := Ideal) x1 x2) 1 _ _ p q).trans ?_
  rw [W_eq]

theorem pay5_apply (x0 : Vec Ideal S512x4x64 .f32) (x1 : Vec Ideal S512 .i32) (x2 : Vec Ideal S512x4 .f32) (p q : Fin 512) :
    k0_pay5 (F := Ideal) x0 x1 x2 (ix2 p q)
      = mmv (fun n => x0 (ix3 p (2 : Fin 4) n)) (wgt (x1 (ix1 q)) (fun j => x2 (ix2 q j))) := by
  unfold k0_pay5
  try dsimp only
  refine (mm_apply x0 (k0_pay2 (F := Ideal) x1 x2) 2 _ _ p q).trans ?_
  rw [W_eq]

/-- The reciprocal of the weight channel's product. -/
theorem pay6_apply (x0 : Vec Ideal S512x4x64 .f32) (x1 : Vec Ideal S512 .i32) (x2 : Vec Ideal S512x4 .f32) (p q : Fin 512) :
    k0_pay6 (F := Ideal) x0 x1 x2 (ix2 p q)
      = Ideal.div 1 (mmv (fun n => x0 (ix3 p (3 : Fin 4) n)) (wgt (x1 (ix1 q)) (fun j => x2 (ix2 q j)))) := by
  unfold k0_pay6
  try dsimp only
  refine (divf_apply _ _ _).trans ?_
  refine congrArg₂ Ideal.div ?_ ?_
  · show Ideal.ofBits .f32 0x3F800000#32 = 1
    exact Ideal.ofBits_one_f32
  · refine (mm_apply x0 (k0_pay2 (F := Ideal) x1 x2) 3 _ _ p q).trans ?_
    rw [W_eq]

/-! ## The stored block -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The one store covers the whole block: the buffer holds the stacked payload of the three loaded blocks. -/
theorem out_eq_pay (x0 : Vec Ideal S512x4x64 .f32) (x1 : Vec Ideal S512 .i32) (x2 : Vec Ideal S512x4 .f32) :
    out0_3 (F := Ideal) x0 x1 x2
      = k0_pay1 (F := Ideal) (k0_pay4 x0 x1 x2) (k0_pay5 x0 x1 x2) (k0_pay6 x0 x1 x2) (k0_pay7 x0 x1 x2) := by
  unfold out0_3
  rw [View.canon_unit_zero hz3]
  simp only [View.ld_unit_zero (S := S512x4x64) hz3, View.ld_unit_zero (S := S512) hz1, View.ld_unit_zero (S := S512x4) hz2]

/-- Three [512, 512] arrays stacked on a new leading axis, read at `(c, p, q)`. -/
theorem stack_apply (A B C : FVec Ideal S512x512 .f32) (hc : S512x512.ShapeCasts S1x512x512)
    (h : Shape.Concatenates [S1x512x512, S1x512x512, S1x512x512] S3x512x512 0) (c : Fin 3) (p q : Fin 512) :
    concatenate S3x512x512 0 [⟨S1x512x512, shapeCast S1x512x512 A hc⟩, ⟨S1x512x512, shapeCast S1x512x512 B hc⟩,
        ⟨S1x512x512, shapeCast S1x512x512 C hc⟩] h (ix3 c p q)
      = if c.val = 0 then A (ix2 p q) else if c.val = 1 then B (ix2 p q) else C (ix2 p q) := by
  match c with
  | ⟨0, _⟩ =>
    rw [if_pos rfl]
    refine (concatenate_apply_piece (t := S3x512x512) (0 : Fin 3) [⟨S1x512x512, shapeCast S1x512x512 A hc⟩, ⟨S1x512x512, shapeCast S1x512x512 B hc⟩, ⟨S1x512x512, shapeCast S1x512x512 C hc⟩] h _ 0 (by simp) S1x512x512 _ rfl rfl 0 rfl (ix3 (0 : Fin 1) p q)
      (fun b hb => ?_) rfl).trans (shapeCast_ab_1ab_apply A hc 0 p q)
    match b with
    | ⟨0, _⟩ => exact absurd rfl hb
    | ⟨1, _⟩ => rfl
    | ⟨2, _⟩ => rfl
  | ⟨1, _⟩ =>
    rw [if_neg (show ¬ ((1 : ℕ) = 0) by omega), if_pos rfl]
    refine (concatenate_apply_piece (t := S3x512x512) (0 : Fin 3) [⟨S1x512x512, shapeCast S1x512x512 A hc⟩, ⟨S1x512x512, shapeCast S1x512x512 B hc⟩, ⟨S1x512x512, shapeCast S1x512x512 C hc⟩] h _ 1 (by simp) S1x512x512 _ rfl rfl 1 rfl (ix3 (0 : Fin 1) p q)
      (fun b hb => ?_) rfl).trans (shapeCast_ab_1ab_apply B hc 0 p q)
    match b with
    | ⟨0, _⟩ => exact absurd rfl hb
    | ⟨1, _⟩ => rfl
    | ⟨2, _⟩ => rfl
  | ⟨2, _⟩ =>
    rw [if_neg (show ¬ ((2 : ℕ) = 0) by omega), if_neg (show ¬ ((2 : ℕ) = 1) by omega)]
    refine (concatenate_apply_piece (t := S3x512x512) (0 : Fin 3) [⟨S1x512x512, shapeCast S1x512x512 A hc⟩, ⟨S1x512x512, shapeCast S1x512x512 B hc⟩, ⟨S1x512x512, shapeCast S1x512x512 C hc⟩] h _ 2 (by simp) S1x512x512 _ rfl rfl 2 rfl (ix3 (0 : Fin 1) p q)
      (fun b hb => ?_) rfl).trans (shapeCast_ab_1ab_apply C hc 0 p q)
    match b with
    | ⟨0, _⟩ => exact absurd rfl hb
    | ⟨1, _⟩ => rfl
    | ⟨2, _⟩ => rfl

/-- THE BLOCK AT AN ELEMENT: channel `c`, curve `p`, sample `q`. -/
theorem out_apply (x0 : Vec Ideal S512x4x64 .f32) (x1 : Vec Ideal S512 .i32) (x2 : Vec Ideal S512x4 .f32)
    (c : Fin 3) (p q : Fin 512) :
    out0_3 (F := Ideal) x0 x1 x2 (ix3 c p q)
      = pix (fun d n => x0 (ix3 p d n)) (x1 (ix1 q)) (fun j => x2 (ix2 q j)) c := by
  rw [out_eq_pay]
  unfold k0_pay1
  try dsimp only
  rw [stack_apply]
  unfold pix
  match c with
  | ⟨0, _⟩ =>
    rw [if_pos rfl, pay7_apply, pay6_apply]
    rfl
  | ⟨1, _⟩ =>
    rw [if_neg (show ¬ ((1 : ℕ) = 0) by omega), if_pos rfl]
    refine (mulf_apply _ _ _).trans ?_
    rw [pay4_apply, pay6_apply]
    rfl
  | ⟨2, _⟩ =>
    rw [if_neg (show ¬ ((2 : ℕ) = 0) by omega), if_neg (show ¬ ((2 : ℕ) = 1) by omega)]
    refine (mulf_apply _ _ _).trans ?_
    rw [pay5_apply, pay6_apply]
    rfl

end Cert.KernelIdeal.Block

end
-- ==== Proof.KernelArray.lean ====
/-
  The kernel's whole run at the ideal instance: the control points are transposed to [curve, channel, control point],
  every grid point (a tile of 512 curves by 512 samples) writes its block of the [3, 4096, 2048] array, the blocks tile
  that array, and the final transpose brings it to [4096, 2048, 3]. So the result array is `CurveSpec.Kres` of the
  three argument arrays.
-/
import proofs.«414962_j1116691497254_3_alg».proof.Proof.KernelBlock
import Idealize.ShloMosaic.Lib.StableHlo.Run

noncomputable section

namespace Cert.KernelIdeal.Array

open Idealize.ShloMosaic Idealize.ShloMosaic.ValueIdx Idealize.ShloMosaic.TcCoe Idealize.SL.Sem
open Idealize.ShloMosaic.Pipeline (Dat)
open Cert.KernelIdeal Cert.KernelIdeal.Gen Cert.CurveSpec

variable (m : (ℓ : Loc nD τ sig) → Buf (Elt Ideal) ℓ) (ρ : Dev nD → PrngReg)

/-! ## The arrays the region finds -/

/-- The first window's array is the control points with their last two axes swapped. -/
theorem V_main_v0 (c : Dev nD) :
    (V m c main_v0 : S4096x4x64.Idx → EReal)
      = transpose S4096x4x64 [0, 2, 1] (m ((c : Thread nD τ).loc main_arg0)) transposes_S4096x64x4_S4096x4x64_0_2_1 := by
  show StableHlo.after hostOps0 (fun b => m (c, b)) (Proc.devRef .tc main_v0) = _
  after_results

/-! ## The whole [3, 4096, 2048] array the blocks restrict -/

/-- Element (channel, curve, sample) of the array the grid fills, from the three arrays the windows stage: the curve's
    control points contracted with the sample's one-hot weights, times the reciprocal of the weight channel's contraction. -/
def Garr (A0 : S4096x4x64.Idx → EReal) (A1 : S2048.Idx → BitVec 32) (A2 : S2048x4.Idx → EReal) : S3x4096x2048.Idx → EReal :=
  fun i => pix (fun d n => A0 (ix3 (i 1) d n)) (A1 (ix1 (i 2))) (fun j => A2 (ix2 (i 2) j)) (i 0)

theorem Garr_apply (A0 : S4096x4x64.Idx → EReal) (A1 : S2048.Idx → BitVec 32) (A2 : S2048x4.Idx → EReal)
    (ch : Fin 3) (b : Fin 4096) (s : Fin 2048) :
    Garr A0 A1 A2 (ix3 ch b s) = pix (fun d n => A0 (ix3 b d n)) (A1 (ix1 s)) (fun j => A2 (ix2 s j)) ch := rfl

/-! ## The printed index maps over the grid -/

/-- Decided once over the 32 grid points: the control-point window moves with the output's curve axis, the span and
    basis windows with its sample axis, every other block index is zero, and the output's block indices stay in range. -/
theorem idx_facts : ∀ t : Fin cfg0.N,
    win0_0.index t (0 : Fin 3) = win0_3.index t (1 : Fin 3)
    ∧ win0_0.index t (1 : Fin 3) = 0 ∧ win0_0.index t (2 : Fin 3) = 0
    ∧ win0_1.index t (0 : Fin 1) = win0_3.index t (2 : Fin 3)
    ∧ win0_2.index t (0 : Fin 2) = win0_3.index t (2 : Fin 3) ∧ win0_2.index t (1 : Fin 2) = 0
    ∧ win0_3.index t (0 : Fin 3) = 0
    ∧ win0_3.index t (1 : Fin 3) ≤ 7 ∧ win0_3.index t (2 : Fin 3) ≤ 3 :=
  (by decide +kernel : ∀ t : Fin grid0.N, _)

/-- Every (curve tile, sample tile) pair is some grid point's output block. -/
theorem idx_onto : ∀ (q0 : Fin 8) (q1 : Fin 4), ∃ t : Fin cfg0.N, win0_3.index t = ![0, q0.val, q1.val] :=
  (by decide +kernel : ∀ (q0 : Fin 8) (q1 : Fin 4), ∃ t : Fin grid0.N, win0_3.index t = ![0, q0.val, q1.val])

/-! ## Each input block read where the output's block says -/

/-- Control point `(p, d, n)` of the first window's block at point `t` is the array's at curve `512 · (curve tile) + p`. -/
theorem blk0_apply (c : Dev nD) (t : Fin cfg0.N) (p : Fin 512) (d : Fin 4) (n : Fin 64) (k : S4096x4x64.Idx)
    (hk0 : (k 0).val = win0_3.index t (1 : Fin 3) * 512 + p.val) (hk1 : (k 1).val = d.val) (hk2 : (k 2).val = n.val) :
    (iblk m c 0 t : Vec Ideal S512x4x64 .f32) (ix3 p d n) = (V m c main_v0 : S4096x4x64.Idx → EReal) k := by
  obtain ⟨e0, e1, e2, -⟩ := idx_facts t
  show V m c main_v0 (((cfg0.win 0).blk t).view.emb (ix3 p d n)) = V m c main_v0 k
  refine congrArg _ (funext fun a => Fin.ext ?_)
  match a with
  | ⟨0, _⟩ => show win0_0.index t (0 : Fin 3) * 512 + 1 * p.val = (k 0).val; omega
  | ⟨1, _⟩ => show win0_0.index t (1 : Fin 3) * 4 + 1 * d.val = (k 1).val; omega
  | ⟨2, _⟩ => show win0_0.index t (2 : Fin 3) * 64 + 1 * n.val = (k 2).val; omega

/-- Span word `q` of the second window's block at point `t` is the array's at sample `512 · (sample tile) + q`. -/
theorem blk1_apply (c : Dev nD) (t : Fin cfg0.N) (q : Fin 512) (k : S2048.Idx)
    (hk0 : (k 0).val = win0_3.index t (2 : Fin 3) * 512 + q.val) :
    (iblk m c 1 t : Vec Ideal S512 .i32) (ix1 q) = (V m c main_arg1 : S2048.Idx → BitVec 32) k := by
  obtain ⟨-, -, -, e3, -⟩ := idx_facts t
  show V m c main_arg1 (((cfg0.win 1).blk t).view.emb (ix1 q)) = V m c main_arg1 k
  refine congrArg _ (funext fun a => Fin.ext ?_)
  match a with
  | ⟨0, _⟩ => show win0_1.index t (0 : Fin 1) * 512 + 1 * q.val = (k 0).val; omega

/-- Basis value `(q, j)` of the third window's block at point `t` is the array's at sample `512 · (sample tile) + q`. -/
theorem blk2_apply (c : Dev nD) (t : Fin cfg0.N) (q : Fin 512) (j : Fin 4) (k : S2048x4.Idx)
    (hk0 : (k 0).val = win0_3.index t (2 : Fin 3) * 512 + q.val) (hk1 : (k 1).val = j.val) :
    (iblk m c 2 t : Vec Ideal S512x4 .f32) (ix2 q j) = (V m c main_arg2 : S2048x4.Idx → EReal) k := by
  obtain ⟨-, -, -, -, e4, e5, -⟩ := idx_facts t
  show V m c main_arg2 (((cfg0.win 2).blk t).view.emb (ix2 q j)) = V m c main_arg2 k
  refine congrArg _ (funext fun a => Fin.ext ?_)
  match a with
  | ⟨0, _⟩ => show win0_2.index t (0 : Fin 2) * 512 + 1 * q.val = (k 0).val; omega
  | ⟨1, _⟩ => show win0_2.index t (1 : Fin 2) * 4 + 1 * j.val = (k 1).val; omega

/-! ## What a grid point writes back -/

/-- One element of a point's output block, from ANY three input blocks that are the tiles of three arrays at curve tile
    `bi` and sample tile `si`: it is the whole-array function at the element's place in the array. -/
theorem blk_pix (A0 : S4096x4x64.Idx → EReal) (A1 : S2048.Idx → BitVec 32) (A2 : S2048x4.Idx → EReal)
    (x0 : Vec Ideal S512x4x64 .f32) (x1 : Vec Ideal S512 .i32) (x2 : Vec Ideal S512x4 .f32) (bi si : Nat)
    (h0 : ∀ (p : Fin 512) (d : Fin 4) (n : Fin 64) (k : S4096x4x64.Idx), (k 0).val = bi * 512 + p.val → (k 1).val = d.val →
      (k 2).val = n.val → x0 (ix3 p d n) = A0 k)
    (h1 : ∀ (q : Fin 512) (k : S2048.Idx), (k 0).val = si * 512 + q.val → x1 (ix1 q) = A1 k)
    (h2 : ∀ (q : Fin 512) (j : Fin 4) (k : S2048x4.Idx), (k 0).val = si * 512 + q.val → (k 1).val = j.val → x2 (ix2 q j) = A2 k)
    (y : S3x512x512.Idx) (k : S3x4096x2048.Idx) (hk0 : (k 0).val = (y 0).val) (hk1 : (k 1).val = bi * 512 + (y 1).val)
    (hk2 : (k 2).val = si * 512 + (y 2).val) :
    out0_3 (F := Ideal) x0 x1 x2 y = Garr A0 A1 A2 k := by
  obtain ⟨ch, p, q, rfl⟩ : ∃ (ch : Fin 3) (p q : Fin 512), y = ix3 ch p q := ⟨y 0, y 1, y 2, eq_ix3 y⟩
  obtain ⟨ch', b, s, rfl⟩ : ∃ (ch' : Fin 3) (b : Fin 4096) (s : Fin 2048), k = ix3 ch' b s := ⟨k 0, k 1, k 2, eq_ix3 k⟩
  obtain rfl : ch' = ch := Fin.ext hk0
  rw [Block.out_apply, Garr_apply]
  have e0 : (fun (d : Fin 4) (n : Fin 64) => x0 (ix3 p d n)) = fun d n => A0 (ix3 b d n) :=
    funext fun d => funext fun n => h0 p d n (ix3 b d n) hk1 rfl rfl
  have e1 : x1 (ix1 q) = A1 (ix1 s) := h1 q (ix1 s) hk2
  have e2 : (fun j : Fin 4 => x2 (ix2 q j)) = fun j => A2 (ix2 s j) := funext fun j => h2 q j (ix2 s j) hk2 rfl
  rw [e0, e1, e2]

/-- WHAT POINT `t` WRITES BACK is block `t` of the whole-array function of the arrays the region finds. -/
theorem flushed_eq (c : Dev nD) (t : Fin cfg0.N) :
    (dats m 0 c).flushed 3 t
      = ((cfg0.win 3).blk t).view.read (Elt Ideal) (Garr (V m c main_v0) (V m c main_arg1) (V m c main_arg2)) := by
  show (cfg0.win 3).cut (grid0.coords t) ((dats m 0 c).after 3 t) = _
  rw [after0_3]
  obtain ⟨-, -, -, -, -, -, e6, -⟩ := idx_facts t
  funext y
  show out0_3 (F := Ideal) (iblk m c 0 t) (iblk m c 1 t) (iblk m c 2 t) y
    = Garr (V m c main_v0) (V m c main_arg1) (V m c main_arg2) (((cfg0.win 3).blk t).view.emb y)
  refine blk_pix (V m c main_v0) (V m c main_arg1) (V m c main_arg2) (iblk m c 0 t) (iblk m c 1 t) (iblk m c 2 t)
    (win0_3.index t (1 : Fin 3)) (win0_3.index t (2 : Fin 3))
    (fun p d n k hk0 hk1 hk2 => blk0_apply m c t p d n k hk0 hk1 hk2)
    (fun q k hk0 => blk1_apply m c t q k hk0)
    (fun q j k hk0 hk1 => blk2_apply m c t q j k hk0 hk1)
    y (((cfg0.win 3).blk t).view.emb y) ?_ ?_ ?_
  · show win0_3.index t (0 : Fin 3) * 3 + 1 * (y 0).val = (y 0).val; omega
  · show win0_3.index t (1 : Fin 3) * 512 + 1 * (y 1).val = win0_3.index t (1 : Fin 3) * 512 + (y 1).val; omega
  · show win0_3.index t (2 : Fin 3) * 512 + 1 * (y 2).val = win0_3.index t (2 : Fin 3) * 512 + (y 2).val; omega

/-! ## The blocks tile the array -/

/-- An index of the array is in point `t`'s block iff each coordinate is in the block's range on its axis. -/
theorem mem_blk (t : Fin cfg0.N) (i : S3x4096x2048.Idx) :
    i ∈ ((cfg0.win 3).blk t).view.set ↔ ∀ a : Fin 3, win0_3.index t a * S3x512x512.size a ≤ (i a).val
      ∧ (i a).val < win0_3.index t a * S3x512x512.size a + S3x512x512.size a := by
  show i ∈ ((View.whole main_v1).slice (win0_3.rect t)).set ↔ _
  rw [View.set_slice_whole, Rect.mem_set_unit]
  exact Iff.rfl

/-- Every element of the array is in the block of the point at curve tile `curve / 512` and sample tile `sample / 512`. -/
theorem cover (i : S3x4096x2048.Idx) :
    ∃ t : Fin cfg0.N, (cfg0.win 3).flush t = true ∧ i ∈ ((cfg0.win 3).blk t).view.set := by
  have hi0 : (i 0).val < 3 := (i 0).isLt
  have hi1 : (i 1).val < 4096 := (i 1).isLt
  have hi2 : (i 2).val < 2048 := (i 2).isLt
  obtain ⟨t, ht⟩ := idx_onto ⟨(i 1).val / 512, by omega⟩ ⟨(i 2).val / 512, by omega⟩
  have q0 : win0_3.index t (0 : Fin 3) = 0 := congrFun ht 0
  have q1 : win0_3.index t (1 : Fin 3) = (i 1).val / 512 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 3 ≤ (i 0).val ∧ (i 0).val < win0_3.index t (0 : Fin 3) * 3 + 3; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE ARRAY after the region: the whole-array function of the arrays the region finds. -/
theorem final (c : Dev nD) :
    (dats m 0 c).arrAt 3 cfg0.N = Garr (V m c main_v0) (V m c main_arg1) (V m c main_arg2) :=
  (dats m 0 c).arrAt_eq_of_cover 3 (Garr (V m c main_v0) (V m c main_arg1) (V m c main_arg2))
    (fun t _ => flushed_eq m c t) cover

/-! ## The transpose after the region, and the run -/

/-- The result buffer after the last line: the array the region leaves with its channel axis moved last. -/
theorem tail_eq (c : Dev nD) :
    (Pipeline.afterTail₀ cfgs (dats m) 0 (V0 m) [hostOps1] c main_v2 : S4096x2048x3.Idx → EReal)
      = transpose S4096x2048x3 [1, 2, 0] (Garr (V m c main_v0) (V m c main_arg1) (V m c main_arg2))
          transposes_S3x4096x2048_S4096x2048x3_1_2_0 := by
  unfold Pipeline.afterTail₀
  show StableHlo.after hostOps1 _ (Proc.devRef .tc main_v2) = _
  after_results
  exact congrArg (fun X => transpose S4096x2048x3 [1, 2, 0] X transposes_S3x4096x2048_S4096x2048x3_1_2_0)
    ((Pipeline.withArrays_arr spec0 launch0.win.arr_inj c _ _ 3).trans (final m c))

/-- Element (curve, sample, channel) of the result: the specification's, the control points read through the first
    transpose and the channel axis through the last. -/
theorem result_eq (c : Dev nD) :
    (Pipeline.afterTail₀ cfgs (dats m) 0 (V0 m) [hostOps1] c main_v2 : S4096x2048x3.Idx → EReal)
      = Kres (m ((c : Thread nD τ).loc main_arg0)) (m ((c : Thread nD τ).loc main_arg1)) (m ((c : Thread nD τ).loc main_arg2)) := by
  rw [tail_eq]
  funext i
  obtain ⟨b, s, ch, rfl⟩ : ∃ (b : Fin 4096) (s : Fin 2048) (ch : Fin 3), i = ix3 b s ch := ⟨i 0, i 1, i 2, eq_ix3 i⟩
  refine (transpose_apply _ _ _ (ix3 b s ch) (ix3 ch b s)
    (fun a => match a with | ⟨0, _⟩ => rfl | ⟨1, _⟩ => rfl | ⟨2, _⟩ => rfl)).trans ?_
  rw [Garr_apply]
  show _ = pix (fun d n => m ((c : Thread nD τ).loc main_arg0) (ix3 b n d)) (m ((c : Thread nD τ).loc main_arg1) (ix1 s))
    (fun j => m ((c : Thread nD τ).loc main_arg2) (ix2 s j)) ch
  have e0 : (fun (d : Fin 4) (n : Fin 64) => (V m c main_v0 : S4096x4x64.Idx → EReal) (ix3 b d n))
      = fun d n => m ((c : Thread nD τ).loc main_arg0) (ix3 b n d) :=
    funext fun d => funext fun n => by
      rw [V_main_v0]
      exact transpose_ix3_021_apply _ _ b d n
  rw [e0, V_main_arg1, V_main_arg2]

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Kres (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Array

end
-- ==== Proof.RefValue.lean ====
/-
  The reference's result, index by index, is the direct reading of the rational curve evaluation (`CurveSpec.G`), when every
  span word lies in [3, 63].

  The reference gathers, for each of the four basis functions `j`, the control-point row `span − 3 + j` of every curve (a
  negative row number first has 64 added, then the gather clamps the row into [0, 63]: with the span in range neither
  does anything), multiplies by the basis value spread over curves and channels, adds the four products left to right,
  and divides the first three channels by the fourth.
-/
import proofs.«414962_j1116691497254_3_alg».proof.Proof.Gen.ReferenceIdeal.Read
import proofs.«414962_j1116691497254_3_alg».proof.Proof.Spec
import proofs.«414962_j1116691497254_3_alg».proof.Proof.Layouts
import Idealize.ShloMosaic.Lib.Pipeline.Value
import Idealize.ShloMosaic.Lib.ValueLayout
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read
open Cert.CurveSpec Cert.Layouts

/-! ## A gather of whole rows along the middle axis -/

/-- The gather's dimension numbers: operand [4096, 64, 4], one start-index word per sample in [2048, 1], result
    [4096, 2048, 4]; the middle axis is collapsed and indexed, the other two are carried whole. -/
abbrev Gd := gather_S4096x64x4_S2048x1_S4096x2048x4_02_1_n_n_1_1_409614

/-- That gather read at `(b, s, d)`: the operand at curve `b`, channel `d` and the row "sample `s`'s start-index word,
    read signed and clamped into [0, 63]". -/
theorem gather_rows_apply {α : Type} (x : S4096x64x4.Idx → α) (idx : IVec S2048x1 32) (b : Fin 4096) (s : Fin 2048) (d : Fin 4) :
    Host.gather Gd x idx (ix3 b s d) = x (ix3 b ⟨min (idx (ix2 s (0 : Fin 1))).toInt.toNat 63, by omega⟩ d) := by
  unfold Host.gather
  congr 1
  funext a
  refine Fin.ext ?_
  show Gd.start (ix3 b s d) idx a + Gd.batchCoord (ix3 b s d) a + Gd.offCoord (ix3 b s d) a = _
  have hb : a ∉ Gd.operandBatchingDims := by simp [Gd, gather_S4096x64x4_S2048x1_S4096x2048x4_02_1_n_n_1_1_409614]
  rw [GatherDims.batchCoord_eq_zero _ _ _ hb, Nat.add_zero]
  match a with
  | ⟨0, _⟩ =>
    simp [GatherDims.start, GatherDims.offCoord, GatherDims.sKept, Shape.kept, Gd, gather_S4096x64x4_S2048x1_S4096x2048x4_02_1_n_n_1_1_409614]
    rfl
  | ⟨1, _⟩ =>
    simp [GatherDims.start, GatherDims.offCoord, GatherDims.sKept, Shape.kept, Gd, gather_S4096x64x4_S2048x1_S4096x2048x4_02_1_n_n_1_1_409614]
    refine congrArg (fun z => min (idx z).toInt.toNat 63) ?_
    funext c
    refine Fin.ext ?_
    match c with
    | ⟨0, _⟩ => rfl
    | ⟨1, _⟩ => rfl
  | ⟨2, _⟩ =>
    simp [GatherDims.start, GatherDims.offCoord, GatherDims.sKept, Shape.kept, Gd, gather_S4096x64x4_S2048x1_S4096x2048x4_02_1_n_n_1_1_409614]
    rfl

/-! ## The row words of a span in range -/

/-- A span word in [3, 63], as a natural number. -/
theorem span_nat (sp : BitVec 32) (hlo : 3 ≤ sp.toInt) (hhi : sp.toInt ≤ 63) :
    3 ≤ sp.toNat ∧ sp.toNat ≤ 63 ∧ sp.toInt = (sp.toNat : ℤ) := by
  have ht := BitVec.toInt_eq_toNat_cond sp
  have hlt := sp.isLt
  split at ht <;> omega

/-- `span − 3 + k` on 32-bit words is `span − 3 + k` on integers when the span is in range and `k < 4`. -/
theorem word_toInt (sp : BitVec 32) (hlo : 3 ≤ sp.toInt) (hhi : sp.toInt ≤ 63) (w : BitVec 32) (k : ℕ) (hk : k < 4)
    (hw : w.toNat = k) : (IntOp.addi (IntOp.subi sp 3#32) w).toInt = sp.toInt - 3 + (k : ℤ) := by
  obtain ⟨h3, h63, hsi⟩ := span_nat sp hlo hhi
  have hn : (IntOp.addi (IntOp.subi sp 3#32) w).toNat = sp.toNat - 3 + k := by
    simp only [IntOp.addi, IntOp.subi]
    bv_omega
  have ht := BitVec.toInt_eq_toNat_cond (IntOp.addi (IntOp.subi sp 3#32) w)
  rw [hn] at ht
  split at ht <;> omega

/-- The same without the addition (basis function 0). -/
theorem word0_toInt (sp : BitVec 32) (hlo : 3 ≤ sp.toInt) (hhi : sp.toInt ≤ 63) :
    (IntOp.subi sp 3#32).toInt = sp.toInt - 3 + ((0 : ℕ) : ℤ) := by
  obtain ⟨h3, h63, hsi⟩ := span_nat sp hlo hhi
  have hn : (IntOp.subi sp 3#32).toNat = sp.toNat - 3 := by
    simp only [IntOp.subi]
    bv_omega
  have ht := BitVec.toInt_eq_toNat_cond (IntOp.subi sp 3#32)
  rw [hn] at ht
  split at ht <;> omega

/-- A row word `v = span − 3 + j` of a span in range is not negative, so the wrap-around of negative row numbers leaves
    it alone, and the clamp into [0, 63] gives the row `CurveSpec.row`. -/
theorem wrap_row (sp : BitVec 32) (v : BitVec 32) (j : Fin 4) (hlo : 3 ≤ sp.toInt) (hhi : sp.toInt ≤ 63)
    (hv : v.toInt = sp.toInt - 3 + ((j.val : ℕ) : ℤ)) (k64 : BitVec 32) :
    (⟨min (Scalar.select (IntOp.cmpi .slt v 0#32) (IntOp.addi v k64) v).toInt.toNat 63, by omega⟩ : Fin 64) = row sp j := by
  have h0 : ¬ v.toInt < 0 := by rw [hv]; omega
  have hneg : IntOp.cmpi .slt v 0#32 = 0#1 := by
    simp [IntOp.cmpi, BitVec.slt, h0]
  apply Fin.ext
  show min (Scalar.select (IntOp.cmpi .slt v 0#32) (IntOp.addi v k64) v).toInt.toNat 63
    = min (sp.toInt - 3 + (j.val : ℤ)).toNat 63
  rw [hneg, select_zero, hv]

/-- The same for a start-index word known to be that wrapped row word. -/
theorem row_of_word (sp : BitVec 32) (w v : BitVec 32) (j : Fin 4) (hlo : 3 ≤ sp.toInt) (hhi : sp.toInt ≤ 63)
    (hv : v.toInt = sp.toInt - 3 + ((j.val : ℕ) : ℤ)) (k64 : BitVec 32)
    (hw : w = Scalar.select (IntOp.cmpi .slt v 0#32) (IntOp.addi v k64) v) (h : min w.toInt.toNat 63 < 64) :
    (⟨min w.toInt.toNat 63, h⟩ : Fin 64) = row sp j := by
  subst hw
  exact wrap_row sp v j hlo hhi hv k64

/-! ## The stages of the reference, read at an index -/

section Stages
variable (a0 : CP) (a1 : SP) (a2 : BS)

/-- Basis value `j` of sample `s`, spread over curves and channels. -/
theorem bas0 (b : Fin 4096) (s : Fin 2048) (d : Fin 4) : val_main_v12 (F := Ideal) a2 (ix3 b s d) = a2 (ix2 s (0 : Fin 4)) := by
  rw [val_main_v12_apply, val_main_v2_apply, val_main_v1_apply, val_main_v0_apply]
  refine congrArg a2 (funext fun a => Fin.ext ?_)
  match a with
  | ⟨0, _⟩ => exact Nat.div_one _
  | ⟨1, _⟩ => rfl
theorem bas1 (b : Fin 4096) (s : Fin 2048) (d : Fin 4) : val_main_v28 (F := Ideal) a2 (ix3 b s d) = a2 (ix2 s (1 : Fin 4)) := by
  rw [val_main_v28_apply, val_main_v16_apply, val_main_v15_apply, val_main_v14_apply]
  refine congrArg a2 (funext fun a => Fin.ext ?_)
  match a with
  | ⟨0, _⟩ => exact Nat.div_one _
  | ⟨1, _⟩ => rfl
theorem bas2 (b : Fin 4096) (s : Fin 2048) (d : Fin 4) : val_main_v45 (F := Ideal) a2 (ix3 b s d) = a2 (ix2 s (2 : Fin 4)) := by
  rw [val_main_v45_apply, val_main_v33_apply, val_main_v32_apply, val_main_v31_apply]
  refine congrArg a2 (funext fun a => Fin.ext ?_)
  match a with
  | ⟨0, _⟩ => exact Nat.div_one _
  | ⟨1, _⟩ => rfl
theorem bas3 (b : Fin 4096) (s : Fin 2048) (d : Fin 4) : val_main_v62 (F := Ideal) a2 (ix3 b s d) = a2 (ix2 s (3 : Fin 4)) := by
  rw [val_main_v62_apply, val_main_v50_apply, val_main_v49_apply, val_main_v48_apply]
  refine congrArg a2 (funext fun a => Fin.ext ?_)
  match a with
  | ⟨0, _⟩ => exact Nat.div_one _
  | ⟨1, _⟩ => rfl

/-- The start-index word of sample `s` for each basis function: the row word, wrapped. -/
theorem w0 (s : Fin 2048) : val_main_v10 (F := Ideal) a1 (ix2 s (0 : Fin 1))
    = Scalar.select (IntOp.cmpi .slt (IntOp.subi (a1 (ix1 s)) 3#32) 0#32)
        (IntOp.addi (IntOp.subi (a1 (ix1 s)) 3#32) 64#32) (IntOp.subi (a1 (ix1 s)) 3#32) := by
  rw [val_main_v10_apply, show idx_main_v10 (ix2 s (0 : Fin 1)) = ix1 s from funext fun a => by match a with | ⟨0, _⟩ => rfl]
  rfl
theorem w1 (s : Fin 2048) : val_main_v26 (F := Ideal) a1 (ix2 s (0 : Fin 1))
    = Scalar.select (IntOp.cmpi .slt (IntOp.addi (IntOp.subi (a1 (ix1 s)) 3#32) 1#32) 0#32)
        (IntOp.addi (IntOp.addi (IntOp.subi (a1 (ix1 s)) 3#32) 1#32) 64#32) (IntOp.addi (IntOp.subi (a1 (ix1 s)) 3#32) 1#32) := by
  rw [val_main_v26_apply, show idx_main_v26 (ix2 s (0 : Fin 1)) = ix1 s from funext fun a => by match a with | ⟨0, _⟩ => rfl]
  rfl
theorem w2 (s : Fin 2048) : val_main_v43 (F := Ideal) a1 (ix2 s (0 : Fin 1))
    = Scalar.select (IntOp.cmpi .slt (IntOp.addi (IntOp.subi (a1 (ix1 s)) 3#32) 2#32) 0#32)
        (IntOp.addi (IntOp.addi (IntOp.subi (a1 (ix1 s)) 3#32) 2#32) 64#32) (IntOp.addi (IntOp.subi (a1 (ix1 s)) 3#32) 2#32) := by
  rw [val_main_v43_apply, show idx_main_v43 (ix2 s (0 : Fin 1)) = ix1 s from funext fun a => by match a with | ⟨0, _⟩ => rfl]
  rfl
theorem w3 (s : Fin 2048) : val_main_v60 (F := Ideal) a1 (ix2 s (0 : Fin 1))
    = Scalar.select (IntOp.cmpi .slt (IntOp.addi (IntOp.subi (a1 (ix1 s)) 3#32) 3#32) 0#32)
        (IntOp.addi (IntOp.addi (IntOp.subi (a1 (ix1 s)) 3#32) 3#32) 64#32) (IntOp.addi (IntOp.subi (a1 (ix1 s)) 3#32) 3#32) := by
  rw [val_main_v60_apply, show idx_main_v60 (ix2 s (0 : Fin 1)) = ix1 s from funext fun a => by match a with | ⟨0, _⟩ => rfl]
  rfl

/-- The gathered control point of basis function `j`: row `span − 3 + j` of curve `b`. -/
theorem gat0 (hr : InRange a1) (b : Fin 4096) (s : Fin 2048) (d : Fin 4) :
    val_main_v11 (F := Ideal) a0 a1 (ix3 b s d) = a0 (ix3 b (row (a1 (ix1 s)) 0) d) := by
  unfold val_main_v11
  rw [gather_rows_apply]
  exact congrArg (fun r => a0 (ix3 b r d))
    (row_of_word (a1 (ix1 s)) _ _ 0 (hr s).1 (hr s).2 (word0_toInt _ (hr s).1 (hr s).2) 64#32 (w0 a1 s) _)
theorem gat1 (hr : InRange a1) (b : Fin 4096) (s : Fin 2048) (d : Fin 4) :
    val_main_v27 (F := Ideal) a0 a1 (ix3 b s d) = a0 (ix3 b (row (a1 (ix1 s)) 1) d) := by
  unfold val_main_v27
  rw [gather_rows_apply]
  exact congrArg (fun r => a0 (ix3 b r d))
    (row_of_word (a1 (ix1 s)) _ _ 1 (hr s).1 (hr s).2 (word_toInt _ (hr s).1 (hr s).2 1#32 1 (by omega) rfl) 64#32 (w1 a1 s) _)
theorem gat2 (hr : InRange a1) (b : Fin 4096) (s : Fin 2048) (d : Fin 4) :
    val_main_v44 (F := Ideal) a0 a1 (ix3 b s d) = a0 (ix3 b (row (a1 (ix1 s)) 2) d) := by
  unfold val_main_v44
  rw [gather_rows_apply]
  exact congrArg (fun r => a0 (ix3 b r d))
    (row_of_word (a1 (ix1 s)) _ _ 2 (hr s).1 (hr s).2 (word_toInt _ (hr s).1 (hr s).2 2#32 2 (by omega) rfl) 64#32 (w2 a1 s) _)
theorem gat3 (hr : InRange a1) (b : Fin 4096) (s : Fin 2048) (d : Fin 4) :
    val_main_v61 (F := Ideal) a0 a1 (ix3 b s d) = a0 (ix3 b (row (a1 (ix1 s)) 3) d) := by
  unfold val_main_v61
  rw [gather_rows_apply]
  exact congrArg (fun r => a0 (ix3 b r d))
    (row_of_word (a1 (ix1 s)) _ _ 3 (hr s).1 (hr s).2 (word_toInt _ (hr s).1 (hr s).2 3#32 3 (by omega) rfl) 64#32 (w3 a1 s) _)

/-- The homogeneous combination: the four products added left to right. -/
theorem v64_apply (hr : InRange a1) (b : Fin 4096) (s : Fin 2048) (d : Fin 4) :
    val_main_v64 (F := Ideal) a0 a1 a2 (ix3 b s d) = curve a0 a1 a2 b s d := by
  rw [val_main_v64_apply, val_main_v47_apply, val_main_v30_apply, val_main_v13_apply, val_main_v29_apply,
    val_main_v46_apply, val_main_v63_apply, bas0, bas1, bas2, bas3, gat0 a0 a1 hr, gat1 a0 a1 hr, gat2 a0 a1 hr, gat3 a0 a1 hr]
  rfl

/-- The weight channel the reference divides by. -/
theorem v67_apply (hr : InRange a1) (b : Fin 4096) (s : Fin 2048) :
    val_main_v67 (F := Ideal) a0 a1 a2 (ix2 b s) = curve a0 a1 a2 b s (3 : Fin 4) := by
  have hb : b.val < 4096 := b.isLt
  have hs : s.val < 2048 := s.isLt
  rw [val_main_v67_apply, val_main_v66_apply]
  have e : idx_main_v66 (idx_main_v67 (ix2 b s)) = ix3 b s (3 : Fin 4) := funext fun a => Fin.ext (by
    match a with
    | ⟨0, _⟩ => show (b.val * 2048 + s.val) / 2048 = b.val; omega
    | ⟨1, _⟩ => show (b.val * 2048 + s.val) / 1 % 2048 = s.val; omega
    | ⟨2, _⟩ => rfl)
  rw [e, v64_apply a0 a1 a2 hr]

/-- THE REFERENCE'S RESULT is the direct reading. -/
theorem val70_eq_G (hr : InRange a1) : val_main_v70 (F := Ideal) a0 a1 a2 = G a0 a1 a2 := by
  funext i
  obtain ⟨b, s, c, rfl⟩ : ∃ (b : Fin 4096) (s : Fin 2048) (c : Fin 3), i = ix3 b s c := ⟨i 0, i 1, i 2, eq_ix3 i⟩
  rw [val_main_v70_apply, val_main_v65_apply, val_main_v69_apply, val_main_v68_apply]
  have e65 : idx_main_v65 (ix3 b s c) = ix3 b s (⟨c.val, by omega⟩ : Fin 4) := funext fun a => Fin.ext (by
    match a with
    | ⟨0, _⟩ => rfl
    | ⟨1, _⟩ => rfl
    | ⟨2, _⟩ => rfl)
  have e68 : idx_main_v68 (idx_main_v69 (ix3 b s c)) = ix2 b s := funext fun a => Fin.ext (by
    match a with
    | ⟨0, _⟩ => rfl
    | ⟨1, _⟩ => rfl)
  rw [e65, e68, v64_apply a0 a1 a2 hr, v67_apply a0 a1 a2 hr]
  rfl

end Stages

end Cert.ReferenceIdeal.RefValue

end
-- ==== Proof.Algebra.lean ====
/-
  The two readings of the homogeneous combination agree, and so do the two forms of the rational divide.

  For a sample whose span word lies in [3, 63] the equality test `[n = span − 3 + j]` (on 32-bit words, nothing wraps) is
  `1` exactly at the control point `row span j`, so the weight of control point `n` is the sum of the basis values whose
  row is `n`, and contracting real control points with those weights gives Σ_j basis_j · cp[row_j]: distributivity and an
  exchange of two finite sums, done in the reals (all inputs are finite) and carried back to the extended reals.
  And for a weight channel `y ≠ 0`, `x · (1 / y) = x / y` on the extended reals, whatever `x` is.
-/
import proofs.«414962_j1116691497254_3_alg».proof.Proof.Spec

noncomputable section

open scoped BigOperators

namespace Cert.CurveSpec

open Idealize.ShloMosaic Idealize.ShloMosaic.ValueIdx

/-- The extended real of a finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a span word in [3, 63] the row of basis function `j` is `span − 3 + j` itself. -/
theorem row_val (sp : BitVec 32) (hlo : 3 ≤ sp.toInt) (hhi : sp.toInt ≤ 63) (j : Fin 4) :
    (row sp j).val = sp.toNat - 3 + j.val ∧ 3 ≤ sp.toNat ∧ sp.toNat ≤ 63 := by
  have hj : j.val < 4 := j.isLt
  have ht := BitVec.toInt_eq_toNat_cond sp
  have hlt := sp.isLt
  unfold row
  simp only
  split at ht <;> omega

/-- For a span word in [3, 63] the one-hot entry is `1` at the row and `0` elsewhere. -/
theorem hot_eq (sp : BitVec 32) (hlo : 3 ≤ sp.toInt) (hhi : sp.toInt ≤ 63) (j : Fin 4) (n : Fin 64) :
    hot sp j n = if n = row sp j then ((1 : ℝ) : EReal) else ((0 : ℝ) : EReal) := by
  have hn : n.val < 64 := n.isLt
  have hj : j.val < 4 := j.isLt
  obtain ⟨hrow, h3, h63⟩ := row_val sp hlo hhi j
  have hw : (IntOp.addi (IntOp.subi sp 3#32) (BitVec.ofNat 32 j.val)).toNat = sp.toNat - 3 + j.val := by
    simp only [IntOp.addi, IntOp.subi]
    bv_omega
  have hnw : (BitVec.ofNat 32 n.val).toNat = n.val := by
    simp only [BitVec.toNat_ofNat]; omega
  unfold hot
  by_cases h : n = row sp j
  · rw [if_pos h]
    have e : BitVec.ofNat 32 n.val = IntOp.addi (IntOp.subi sp 3#32) (BitVec.ofNat 32 j.val) :=
      BitVec.eq_of_toNat_eq (by rw [hnw, hw, h, hrow])
    rw [e]
    have : ((IntOp.cmpi .eq (IntOp.addi (IntOp.subi sp 3#32) (BitVec.ofNat 32 j.val))
        (IntOp.addi (IntOp.subi sp 3#32) (BitVec.ofNat 32 j.val))).setWidth 32).toInt = 1 := by
      simp [IntOp.cmpi]
    rw [this]; norm_num
  · rw [if_neg h]
    have e : ¬ BitVec.ofNat 32 n.val = IntOp.addi (IntOp.subi sp 3#32) (BitVec.ofNat 32 j.val) := by
      intro e
      apply h
      apply Fin.ext
      have := congrArg BitVec.toNat e
      rw [hnw, hw] at this
      rw [hrow, this]
    have hb : (BitVec.ofNat 32 n.val == IntOp.addi (IntOp.subi sp 3#32) (BitVec.ofNat 32 j.val)) = false := by
      rw [beq_eq_false_iff_ne]; exact e
    have : ((IntOp.cmpi .eq (BitVec.ofNat 32 n.val)
        (IntOp.addi (IntOp.subi sp 3#32) (BitVec.ofNat 32 j.val))).setWidth 32).toInt = 0 := by
      simp [IntOp.cmpi, hb]
    rw [this]; norm_num

/-- Contracting real control points with the one-hot weights of a sample in range reads the four rows. -/
theorem mmv_wgt (x : Fin 64 → EReal) (sp : BitVec 32) (β : Fin 4 → EReal)
    (hx : ∀ n, ∃ r : ℝ, x n = (r : EReal)) (hβ : ∀ j, ∃ r : ℝ, β j = (r : EReal))
    (hlo : 3 ≤ sp.toInt) (hhi : sp.toInt ≤ 63) :
    mmv x (wgt sp β) = β 0 * x (row sp 0) + β 1 * x (row sp 1) + β 2 * x (row sp 2) + β 3 * x (row sp 3) := by
  choose xr hxr using hx
  choose br hbr using hβ
  have hw : ∀ n, wgt sp β n = ((∑ j : Fin 4, (if n = row sp j then (1 : ℝ) else 0) * br j : ℝ) : EReal) := by
    intro n
    unfold wgt
    rw [coe_sum]
    refine Finset.sum_congr rfl fun j _ => ?_
    rw [hot_eq sp hlo hhi, hbr j, EReal.coe_mul]
    split <;> rfl
  have hm : mmv x (wgt sp β)
      = ((∑ n : Fin 64, xr n * ∑ j : Fin 4, (if n = row sp j then (1 : ℝ) else 0) * br j : ℝ) : EReal) := by
    unfold mmv
    rw [coe_sum]
    refine Finset.sum_congr rfl fun n _ => ?_
    rw [hw n, hxr n, EReal.coe_mul]
  rw [hm, hbr 0, hbr 1, hbr 2, hbr 3, hxr, hxr, hxr, hxr,
    ← EReal.coe_mul, ← EReal.coe_mul, ← EReal.coe_mul, ← EReal.coe_mul, ← EReal.coe_add, ← EReal.coe_add, ← EReal.coe_add]
  congr 1
  simp only [Finset.mul_sum]
  rw [Finset.sum_comm, Fin.sum_univ_four]
  simp only [ite_mul, one_mul, zero_mul, mul_ite, mul_zero, Finset.sum_ite_eq', Finset.mem_univ, if_true]
  ring

/-- A quotient is the product with the reciprocal when the divisor is not zero. -/
theorem mul_div_one (x y : EReal) (hy : y ≠ 0) : x * Ideal.div 1 y = Ideal.div x y := by
  unfold Ideal.div
  rw [if_neg hy, if_neg hy, one_mul]

/-- On finite inputs with spans in range and a nonzero weight channel, the contraction through the one-hot weights times
    the reciprocal is the direct homogeneous combination divided by its weight channel. -/
theorem pix_eq_Gat (cp : CP) (sp : SP) (bs : BS) (h0 : FinCP cp) (h2 : FinBS bs) (hr : InRange sp) (hd : DenNZ cp sp bs)
    (b : Fin 4096) (s : Fin 2048) (c : Fin 3) :
    pix (fun d n => cp (ix3 b n d)) (sp (ix1 s)) (fun j => bs (ix2 s j)) c = Gat cp sp bs b s c := by
  have key : ∀ d : Fin 4, mmv (fun n => cp (ix3 b n d)) (wgt (sp (ix1 s)) (fun j => bs (ix2 s j))) = curve cp sp bs b s d := by
    intro d
    unfold curve
    exact mmv_wgt _ _ _ (fun n => h0 _) (fun j => h2 _) (hr s).1 (hr s).2
  unfold pix Gat
  dsimp only
  rw [key, key, mul_div_one _ _ (hd b s)]

/-- So the two whole result arrays are one. -/
theorem Kres_eq_G (cp : CP) (sp : SP) (bs : BS) (h0 : FinCP cp) (h2 : FinBS bs) (hr : InRange sp) (hd : DenNZ cp sp bs) :
    Kres cp sp bs = G cp sp bs := by
  funext i
  exact pix_eq_Gat cp sp bs h0 h2 hr hd (i 0) (i 1) (i 2)

end Cert.CurveSpec

end
-- ==== Proof.lean ====
/-
  The certificate of the rational B-spline curve evaluation: a Pallas kernel that gathers control points through a
  one-hot matrix product, against the jnp reference that indexes them directly.

  Under the precondition — finite control points and basis values, every span word in [3, 63] so that the four rows
  `span − 3 … span` exist, and the reference's own weight channel nowhere zero — both programs compute, for curve `b`,
  sample `s` and spatial channel `c`,
      (Σ_j basis[s, j] · cp[b, span[s] − 3 + j, c]) / (Σ_j basis[s, j] · cp[b, span[s] − 3 + j, 3]).
  The reference does so literally (RefValue.lean). The kernel spreads the basis values over the 64 control points by an
  equality test, contracts the control-point axis, and multiplies by the reciprocal of the weight channel (KernelBlock.lean
  for one tile, KernelArray.lean for the tiles and the two transposes around them). The two agree by distributivity and an
  exchange of finite sums over the reals, and `x · (1 / y) = x / y` for `y ≠ 0` (Algebra.lean). What the precondition says
  is read off its predicate in PreFacts.lean. The three frames are the generated ones; the ideal pass rewrote nothing, so
  the kernel's idealization is its own text.
-/
import proofs.«414962_j1116691497254_3_alg».proof.Defs
import proofs.«414962_j1116691497254_3_alg».proof.Proof.Gen.Kernel
import proofs.«414962_j1116691497254_3_alg».proof.Proof.Gen.Kernel.Skeleton
import proofs.«414962_j1116691497254_3_alg».proof.Proof.Gen.Kernel.Launch
import proofs.«414962_j1116691497254_3_alg».proof.Proof.Gen.Kernel.Points
import proofs.«414962_j1116691497254_3_alg».proof.Proof.Gen.Kernel.Frame
import proofs.«414962_j1116691497254_3_alg».proof.Proof.Gen.KernelIdeal
import proofs.«414962_j1116691497254_3_alg».proof.Proof.Gen.KernelIdeal.Skeleton
import proofs.«414962_j1116691497254_3_alg».proof.Proof.Gen.KernelIdeal.Launch
import proofs.«414962_j1116691497254_3_alg».proof.Proof.Gen.KernelIdeal.Points
import proofs.«414962_j1116691497254_3_alg».proof.Proof.Gen.KernelIdeal.Frame
import proofs.«414962_j1116691497254_3_alg».proof.Proof.Gen.ReferenceIdeal
import proofs.«414962_j1116691497254_3_alg».proof.Proof.Gen.ReferenceIdeal.Run
import proofs.«414962_j1116691497254_3_alg».proof.Proof.Gen.ReferenceIdeal.Read
import proofs.«414962_j1116691497254_3_alg».proof.Proof.Gen.Pre_finite_inputs
import proofs.«414962_j1116691497254_3_alg».proof.Proof.PreFacts
import proofs.«414962_j1116691497254_3_alg».proof.Proof.KernelArray
import proofs.«414962_j1116691497254_3_alg».proof.Proof.RefValue
import proofs.«414962_j1116691497254_3_alg».proof.Proof.Algebra
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a host program: its generated run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From arguments that agree and satisfy the precondition, both programs end with the rational curve points
    `CurveSpec.G` of the arguments: the kernel's one-hot contraction times a reciprocal is the reference's direct
    combination divided by its weight channel. -/
theorem algebraic : Cert.algebraic_KernelIdeal_ReferenceIdeal := by
  intro m ρ m' ρ' hpre hagree
  have hf := fun c => Cert.PreFacts.facts_of_pre _ _ _ (hpre c)
  refine ⟨fun c => Cert.CurveSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Array.run m ρ)
    obtain ⟨h0, h2, hr, hd⟩ := hf c
    exact Cert.CurveSpec.Kres_eq_G _ _ _ h0 h2 hr
      (fun b s => by rw [← Cert.ReferenceIdeal.RefValue.v67_apply _ _ _ hr b s]; exact hd b s)
  · refine (θ_run Cert.ReferenceIdeal.defs _ _).mono (fun r h c => ⟨(h c).1.trans ?_, (h c).2⟩)
      (Cert.ReferenceIdeal.Value.run (F := Ideal) m' ρ')
    obtain ⟨h0, h2, hr, hd⟩ := hf c
    rw [Cert.ReferenceIdeal.Read.val_main_v70_eq, (hagree c).1, (hagree c).2.1, (hagree c).2.2]
    exact Cert.ReferenceIdeal.RefValue.val70_eq_G _ _ _ hr

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
